-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S3x1089x33 : Shape := ⟨3, ![3, 1089, 33]⟩
abbrev S_ : Shape := ⟨0, ![]⟩
abbrev S3x1152x128 : Shape := ⟨3, ![3, 1152, 128]⟩
abbrev S1x3x8x128 : Shape := ⟨4, ![1, 3, 8, 128]⟩
abbrev S3x8x128 : Shape := ⟨3, ![3, 8, 128]⟩
abbrev S1x8x128 : Shape := ⟨3, ![1, 8, 128]⟩
abbrev S8x128 : Shape := ⟨2, ![8, 128]⟩
abbrev S1024x1152 : Shape := ⟨2, ![1024, 1152]⟩
abbrev S1024x1 : Shape := ⟨2, ![1024, 1]⟩
abbrev S1024x128 : Shape := ⟨2, ![1024, 128]⟩
abbrev S1x1152x128 : Shape := ⟨3, ![1, 1152, 128]⟩
abbrev S1152x128 : Shape := ⟨2, ![1152, 128]⟩
abbrev S1024 : Shape := ⟨1, ![1024]⟩

abbrev nBuf : Space → Nat
  | .hbm => 7
  | .vmem => 5
  | .smem => 0
  | _ => 0

abbrev bufTy : (tb : Table) → Fin (tcTables nBuf tb) → BufTy
  | .hbm, ⟨0, _⟩ => ⟨S3x33x33x33, .f32⟩
  | .hbm, ⟨1, _⟩ => ⟨S8x3x1024x1024, .f32⟩
  | .hbm, ⟨2, _⟩ => ⟨S3x1089x33, .f32⟩
  | .hbm, ⟨3, _⟩ => ⟨S_, .i32⟩
  | .hbm, ⟨4, _⟩ => ⟨S_, .f32⟩
  | .hbm, ⟨5, _⟩ => ⟨S3x1152x128, .f32⟩
  | .hbm, ⟨6, _⟩ => ⟨S8x3x1024x1024, .f32⟩
  | .local _ .vmem, ⟨0, _⟩ => ⟨S3x1152x128, .f32⟩
  | .local _ .vmem, ⟨1, _⟩ => ⟨S1x3x8x128, .f32⟩
  | .local _ .vmem, ⟨2, _⟩ => ⟨S1x3x8x128, .f32⟩
  | .local _ .vmem, ⟨3, _⟩ => ⟨S1x3x8x128, .f32⟩
  | .local _ .vmem, ⟨4, _⟩ => ⟨S1x3x8x128, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 128, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 1 → Memref sig .tc .vmem S3x1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x3x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S3x33x33x33_S3x1089x33 : S3x33x33x33.ShapeCasts S3x1089x33
  pads_S3x1089x33_S3x1152x128_000_0630_0950 : S3x1089x33.Pads (![0, 0, 0] : Fin 3 → Nat) ![0, 63, 95] ![0, 0, 0] S3x1152x128
  h_S_ : 0 < S_.numel
  inb_S1x3x8x128_S1x3x8x128_0_0_0_0 : ∀ a, (![0, 0, 0, 0] : Fin 4 → Nat) a + S1x3x8x128.size a ≤ S1x3x8x128.size a
  h_S1x3x8x128 : 0 < S1x3x8x128.numel
  shapeCasts_S1x3x8x128_S3x8x128 : S1x3x8x128.ShapeCasts S3x8x128
  slices_S3x8x128_o0_0_0_S1x8x128 : S3x8x128.Slices ![0, 0, 0] S1x8x128
  shapeCasts_S1x8x128_S8x128 : S1x8x128.ShapeCasts S8x128
  slices_S3x8x128_o1_0_0_S1x8x128 : S3x8x128.Slices ![1, 0, 0] S1x8x128
  slices_S3x8x128_o2_0_0_S1x8x128 : S3x8x128.Slices ![2, 0, 0] S1x8x128
  iota_S1024x1152_d1_w32 : S1024x1152.Iotas .tc 32 [1]
  shapeCasts_S8x128_S1024x1 : S8x128.ShapeCasts S1024x1
  broadcasts_S1024x1_S1024x1152 : S1024x1.Broadcasts S1024x1152
  shapeCasts_S1024x1_S1024x1 : S1024x1.ShapeCasts S1024x1
  bitsLt_bf16_f32 : FTy.bits .bf16 < FTy.bits .f32
  iota_S1024x128_d1_w32 : S1024x128.Iotas .tc 32 [1]
  broadcasts_S1024x1_S1024x128 : S1024x1.Broadcasts S1024x128
  inb_S3x1152x128_S1x1152x128_0_0_0 : ∀ a, (![0, 0, 0] : Fin 3 → Nat) a + S1x1152x128.size a ≤ S3x1152x128.size a
  h_S1x1152x128 : 0 < S1x1152x128.numel
  shapeCasts_S1x1152x128_S1152x128 : S1x1152x128.ShapeCasts S1152x128
  reduces_S1024x128_S1024 : S1024x128.Reduces [1] S1024
  shapeCasts_S1024_S1024x1 : S1024.ShapeCasts S1024x1
  shapeCasts_S1024x1_S8x128 : S1024x1.ShapeCasts S8x128
  inb_S3x1152x128_S1x1152x128_1_0_0 : ∀ a, (![1, 0, 0] : Fin 3 → Nat) a + S1x1152x128.size a ≤ S3x1152x128.size a
  inb_S3x1152x128_S1x1152x128_2_0_0 : ∀ a, (![2, 0, 0] : Fin 3 → Nat) a + S1x1152x128.size a ≤ S3x1152x128.size a
  shapeCasts_S8x128_S1x8x128 : S8x128.ShapeCasts S1x8x128
  concatenates_S1x8x128_S1x8x128_S1x8x128_S3x8x128_d0 : Shape.Concatenates [S1x8x128, S1x8x128, S1x8x128] S3x8x128 0
  shapeCasts_S3x8x128_S1x3x8x128 : S3x8x128.ShapeCasts S1x3x8x128
  dot_S1024x1152_S1152x128_S1024x128_1_0_0_1_n_n_wf : DotDims.WF S1024x1152 S1152x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x1152x128.size a ≤ S3x1152x128.size a
  hwx0_0 : ∀ i : grid0.Coords, EltTy.bits .f32 = 32 ∨ (Rect.block (s := S3x1152x128) S3x1152x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8x128.size a ≤ S8x3x1024x1024.size a
  hwx0_1 : ∀ i : grid0.Coords, EltTy.bits .f32 = 32 ∨ (Rect.block (s := S8x3x1024x1024) S1x3x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S8x3x1024x1024.size a
  hwx0_2 : ∀ i : grid0.Coords, EltTy.bits .f32 = 32 ∨ (Rect.block (s := S8x3x1024x1024) S1x3x8x128.size (cc0_transform_2 i) (hinb0_2 i)).WholeWords (EltTy.packing .f32)

variable [Facts₀]

def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf

abbrev win0_0 : Pipeline.Window sig grid0 :=
  Pipeline.Window.ofSpec (Memref.whole main_v1) S3x1152x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S_ : Shape := ⟨0, ![]⟩
abbrev S8x1x1024x1024 : Shape := ⟨4, ![8, 1, 1024, 1024]⟩
abbrev S8x1024x1024 : Shape := ⟨3, ![8, 1024, 1024]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩

abbrev nBuf : Space → Nat
  | .hbm => 261
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S_, .f32⟩
  | 3 => ⟨S8x3x1024x1024, .f32⟩
  | 4 => ⟨S8x3x1024x1024, .f32⟩
  | 5 => ⟨S8x3x1024x1024, .f32⟩
  | 6 => ⟨S_, .f32⟩
  | 7 => ⟨S_, .i32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S8x3x1024x1024, .i32⟩
  | 15 => ⟨S8x3x1024x1024, .f32⟩
  | 16 => ⟨S8x3x1024x1024, .f32⟩
  | 17 => ⟨S8x1x1024x1024, .i32⟩
  | 18 => ⟨S8x1024x1024, .i32⟩
  | 19 => ⟨S8x1x1024x1024, .i32⟩
  | 20 => ⟨S8x1024x1024, .i32⟩
  | 21 => ⟨S8x1x1024x1024, .i32⟩
  | 22 => ⟨S8x1024x1024, .i32⟩
  | 23 => ⟨S8x1x1024x1024, .f32⟩
  | 24 => ⟨S8x1024x1024, .f32⟩
  | 25 => ⟨S8x1x1024x1024, .f32⟩
  | 26 => ⟨S8x1024x1024, .f32⟩
  | 27 => ⟨S8x1x1024x1024, .f32⟩
  | 28 => ⟨S8x1024x1024, .f32⟩
  | 29 => ⟨S3x35937, .f32⟩
  | 30 => ⟨S_, .i32⟩
  | 31 => ⟨S8x1024x1024, .i32⟩
  | 32 => ⟨S8x1024x1024, .i32⟩
  | 33 => ⟨S_, .i32⟩
  | 34 => ⟨S8x1024x1024, .i32⟩
  | 35 => ⟨S8x1024x1024, .i32⟩
  | 36 => ⟨S8x1024x1024, .i32⟩
  | 37 => ⟨S8x1024x1024, .i32⟩
  | 38 => ⟨S_, .f32⟩
  | 39 => ⟨S8x3x1024x1024, .f32⟩
  | 40 => ⟨S_, .f32⟩
  | 41 => ⟨S8x1024x1024, .f32⟩
  | 42 => ⟨S8x1024x1024, .f32⟩
  | 43 => ⟨S_, .f32⟩
  | 44 => ⟨S8x1024x1024, .f32⟩
  | 45 => ⟨S8x1024x1024, .f32⟩
  | 46 => ⟨S_, .f32⟩
  | 47 => ⟨S8x1024x1024, .f32⟩
  | 48 => ⟨S8x1024x1024, .f32⟩
  | 49 => ⟨S_, .i32⟩
  | 50 => ⟨S8x1024x1024, .i32⟩
  | 51 => ⟨S8x1024x1024, .i32⟩
  | 52 => ⟨S_, .i32⟩
  | 53 => ⟨S8x1024x1024, .i32⟩
  | 54 => ⟨S8x1024x1024, .i32⟩
  | 55 => ⟨S_, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i1⟩
  | 61 => ⟨S_, .i32⟩
  | 62 => ⟨S8x1024x1024, .i32⟩
  | 63 => ⟨S8x1024x1024, .i32⟩
  | 64 => ⟨S8x1024x1024, .i32⟩
  | 65 => ⟨S8x1024x1024x1, .i32⟩
  | 66 => ⟨S3x8x1024x1024, .f32⟩
  | 67 => ⟨S8x1024x1024, .f32⟩
  | 68 => ⟨S8x1024x1024, .f32⟩
  | 69 => ⟨S8x1x1024x1024, .f32⟩
  | 70 => ⟨S8x3x1024x1024, .f32⟩
  | 71 => ⟨S8x3x1024x1024, .f32⟩
  | 72 => ⟨S8x3x1024x1024, .f32⟩
  | 73 => ⟨S8x3x1024x1024, .f32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i32⟩
  | 83 => ⟨S_, .i32⟩
  | 84 => ⟨S8x1024x1024, .i32⟩
  | 85 => ⟨S8x1024x1024, .i1⟩
  | 86 => ⟨S_, .i32⟩
  | 87 => ⟨S8x1024x1024, .i32⟩
  | 88 => ⟨S8x1024x1024, .i32⟩
  | 89 => ⟨S8x1024x1024, .i32⟩
  | 90 => ⟨S8x1024x1024x1, .i32⟩
  | 91 => ⟨S3x8x1024x1024, .f32⟩
  | 92 => ⟨S8x1024x1024, .f32⟩
  | 93 => ⟨S8x1024x1024, .f32⟩
  | 94 => ⟨S8x1x1024x1024, .f32⟩
  | 95 => ⟨S8x3x1024x1024, .f32⟩
  | 96 => ⟨S8x3x1024x1024, .f32⟩
  | 97 => ⟨S8x3x1024x1024, .f32⟩
  | 98 => ⟨S8x3x1024x1024, .f32⟩
  | 99 => ⟨S_, .f32⟩
  | 100 => ⟨S8x1024x1024, .f32⟩
  | 101 => ⟨S8x1024x1024, .f32⟩
  | 102 => ⟨S_, .i32⟩
  | 103 => ⟨S8x1024x1024, .i32⟩
  | 104 => ⟨S8x1024x1024, .i32⟩
  | 105 => ⟨S_, .i32⟩
  | 106 => ⟨S8x1024x1024, .i32⟩
  | 107 => ⟨S8x1024x1024, .i32⟩
  | 108 => ⟨S_, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S3x8x1024x1024, .f32⟩
  | 120 => ⟨S8x1024x1024, .f32⟩
  | 121 => ⟨S8x1024x1024, .f32⟩
  | 122 => ⟨S8x1x1024x1024, .f32⟩
  | 123 => ⟨S8x3x1024x1024, .f32⟩
  | 124 => ⟨S8x3x1024x1024, .f32⟩
  | 125 => ⟨S8x3x1024x1024, .f32⟩
  | 126 => ⟨S8x3x1024x1024, .f32⟩
  | 127 => ⟨S_, .i32⟩
  | _ => ⟨S3x33x33x33, .f32⟩

abbrev hbmTy0_1 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i32⟩
  | 5 => ⟨S_, .i32⟩
  | 6 => ⟨S8x1024x1024, .i32⟩
  | 7 => ⟨S8x1024x1024, .i32⟩
  | 8 => ⟨S_, .i32⟩
  | 9 => ⟨S8x1024x1024, .i32⟩
  | 10 => ⟨S8x1024x1024, .i1⟩
  | 11 => ⟨S_, .i32⟩
  | 12 => ⟨S8x1024x1024, .i32⟩
  | 13 => ⟨S8x1024x1024, .i32⟩
  | 14 => ⟨S8x1024x1024, .i32⟩
  | 15 => ⟨S8x1024x1024x1, .i32⟩
  | 16 => ⟨S3x8x1024x1024, .f32⟩
  | 17 => ⟨S8x1024x1024, .f32⟩
  | 18 => ⟨S8x1024x1024, .f32⟩
  | 19 => ⟨S8x1x1024x1024, .f32⟩
  | 20 => ⟨S8x3x1024x1024, .f32⟩
  | 21 => ⟨S8x3x1024x1024, .f32⟩
  | 22 => ⟨S8x3x1024x1024, .f32⟩
  | 23 => ⟨S8x3x1024x1024, .f32⟩
  | 24 => ⟨S_, .f32⟩
  | 25 => ⟨S8x1024x1024, .f32⟩
  | 26 => ⟨S8x1024x1024, .f32⟩
  | 27 => ⟨S_, .f32⟩
  | 28 => ⟨S8x1024x1024, .f32⟩
  | 29 => ⟨S8x1024x1024, .f32⟩
  | 30 => ⟨S_, .i32⟩
  | 31 => ⟨S8x1024x1024, .i32⟩
  | 32 => ⟨S8x1024x1024, .i32⟩
  | 33 => ⟨S_, .i32⟩
  | 34 => ⟨S8x1024x1024, .i32⟩
  | 35 => ⟨S8x1024x1024, .i32⟩
  | 36 => ⟨S_, .i32⟩
  | 37 => ⟨S8x1024x1024, .i32⟩
  | 38 => ⟨S8x1024x1024, .i32⟩
  | 39 => ⟨S_, .i32⟩
  | 40 => ⟨S8x1024x1024, .i32⟩
  | 41 => ⟨S8x1024x1024, .i1⟩
  | 42 => ⟨S_, .i32⟩
  | 43 => ⟨S8x1024x1024, .i32⟩
  | 44 => ⟨S8x1024x1024, .i32⟩
  | 45 => ⟨S8x1024x1024, .i32⟩
  | 46 => ⟨S8x1024x1024x1, .i32⟩
  | 47 => ⟨S3x8x1024x1024, .f32⟩
  | 48 => ⟨S8x1024x1024, .f32⟩
  | 49 => ⟨S8x1024x1024, .f32⟩
  | 50 => ⟨S8x1x1024x1024, .f32⟩
  | 51 => ⟨S8x3x1024x1024, .f32⟩
  | 52 => ⟨S8x3x1024x1024, .f32⟩
  | 53 => ⟨S8x3x1024x1024, .f32⟩
  | 54 => ⟨S8x3x1024x1024, .f32⟩
  | 55 => ⟨S_, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i32⟩
  | 61 => ⟨S_, .i32⟩
  | 62 => ⟨S8x1024x1024, .i32⟩
  | 63 => ⟨S8x1024x1024, .i32⟩
  | 64 => ⟨S_, .i32⟩
  | 65 => ⟨S8x1024x1024, .i32⟩
  | 66 => ⟨S8x1024x1024, .i1⟩
  | 67 => ⟨S_, .i32⟩
  | 68 => ⟨S8x1024x1024, .i32⟩
  | 69 => ⟨S8x1024x1024, .i32⟩
  | 70 => ⟨S8x1024x1024, .i32⟩
  | 71 => ⟨S8x1024x1024x1, .i32⟩
  | 72 => ⟨S3x8x1024x1024, .f32⟩
  | 73 => ⟨S8x1024x1024, .f32⟩
  | 74 => ⟨S8x1024x1024, .f32⟩
  | 75 => ⟨S8x1x1024x1024, .f32⟩
  | 76 => ⟨S8x3x1024x1024, .f32⟩
  | 77 => ⟨S8x3x1024x1024, .f32⟩
  | 78 => ⟨S8x3x1024x1024, .f32⟩
  | 79 => ⟨S8x3x1024x1024, .f32⟩
  | 80 => ⟨S_, .f32⟩
  | 81 => ⟨S8x1024x1024, .f32⟩
  | 82 => ⟨S8x1024x1024, .f32⟩
  | 83 => ⟨S_, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S_, .i32⟩
  | 90 => ⟨S8x1024x1024, .i32⟩
  | 91 => ⟨S8x1024x1024, .i32⟩
  | 92 => ⟨S_, .i32⟩
  | 93 => ⟨S8x1024x1024, .i32⟩
  | 94 => ⟨S8x1024x1024, .i1⟩
  | 95 => ⟨S_, .i32⟩
  | 96 => ⟨S8x1024x1024, .i32⟩
  | 97 => ⟨S8x1024x1024, .i32⟩
  | 98 => ⟨S8x1024x1024, .i32⟩
  | 99 => ⟨S8x1024x1024x1, .i32⟩
  | 100 => ⟨S3x8x1024x1024, .f32⟩
  | 101 => ⟨S8x1024x1024, .f32⟩
  | 102 => ⟨S8x1024x1024, .f32⟩
  | 103 => ⟨S8x1x1024x1024, .f32⟩
  | 104 => ⟨S8x3x1024x1024, .f32⟩
  | 105 => ⟨S8x3x1024x1024, .f32⟩
  | 106 => ⟨S8x3x1024x1024, .f32⟩
  | 107 => ⟨S8x3x1024x1024, .f32⟩
  | 108 => ⟨S_, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i32⟩
  | 117 => ⟨S_, .i32⟩
  | 118 => ⟨S8x1024x1024, .i32⟩
  | 119 => ⟨S8x1024x1024, .i1⟩
  | 120 => ⟨S_, .i32⟩
  | 121 => ⟨S8x1024x1024, .i32⟩
  | 122 => ⟨S8x1024x1024, .i32⟩
  | 123 => ⟨S8x1024x1024, .i32⟩
  | 124 => ⟨S8x1024x1024x1, .i32⟩
  | 125 => ⟨S3x8x1024x1024, .f32⟩
  | 126 => ⟨S8x1024x1024, .f32⟩
  | 127 => ⟨S8x1024x1024, .f32⟩
  | _ => ⟨S3x33x33x33, .f32⟩

abbrev hbmTy0_2 (i : Nat) : BufTy := match i % 128 with
  | 0 => ⟨S8x1x1024x1024, .f32⟩
  | 1 => ⟨S8x3x1024x1024, .f32⟩
  | 2 => ⟨S8x3x1024x1024, .f32⟩
  | 3 => ⟨S8x3x1024x1024, .f32⟩
  | 4 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_c_18 : Ref sig .tc := ⟨.hbm, 102, rfl⟩
abbrev main_v75 : Ref sig .tc := ⟨.hbm, 103, rfl⟩
abbrev main_v76 : Ref sig .tc := ⟨.hbm, 104, rfl⟩
abbrev main_c_19 : Ref sig .tc := ⟨.hbm, 105, rfl⟩
abbrev main_v77 : Ref sig .tc := ⟨.hbm, 106, rfl⟩
abbrev main_v78 : Ref sig .tc := ⟨.hbm, 107, rfl⟩
abbrev main_c_20 : Ref sig .tc := ⟨.hbm, 108, rfl⟩
abbrev main_v79 : Ref sig .tc := ⟨.hbm, 109, rfl⟩
abbrev main_v80 : Ref sig .tc := ⟨.hbm, 110, rfl⟩
abbrev main_c_21 : Ref sig .tc := ⟨.hbm, 111, rfl⟩
abbrev main_v81 : Ref sig .tc := ⟨.hbm, 112, rfl⟩
abbrev main_v82 : Ref sig .tc := ⟨.hbm, 113, rfl⟩
abbrev main_c_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_23 : Ref sig .tc := ⟨.hbm, 127, rfl⟩
abbrev main_v95 : Ref sig .tc := ⟨.hbm, 128, rfl⟩
abbrev main_v96 : Ref sig .tc := ⟨.hbm, 129, rfl⟩
abbrev main_c_24 : Ref sig .tc := ⟨.hbm, 130, rfl⟩
abbrev main_v97 : Ref sig .tc := ⟨.hbm, 131, rfl⟩
abbrev main_v98 : Ref sig .tc := ⟨.hbm, 132, rfl⟩
abbrev main_c_25 : Ref sig .tc := ⟨.hbm, 133, rfl⟩
abbrev main_v99 : Ref sig .tc := ⟨.hbm, 134, rfl⟩
abbrev main_v100 : Ref sig .tc := ⟨.hbm, 135, rfl⟩
abbrev main_c_26 : Ref sig .tc := ⟨.hbm, 136, rfl⟩
abbrev main_v101 : Ref sig .tc := ⟨.hbm, 137, rfl⟩
abbrev main_v102 : Ref sig .tc := ⟨.hbm, 138, rfl⟩
abbrev main_c_27 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_28 : Ref sig .tc := ⟨.hbm, 152, rfl⟩
abbrev main_v115 : Ref sig .tc := ⟨.hbm, 153, rfl⟩
abbrev main_v116 : Ref sig .tc := ⟨.hbm, 154, rfl⟩
abbrev main_cst_29 : Ref sig .tc := ⟨.hbm, 155, rfl⟩
abbrev main_v117 : Ref sig .tc := ⟨.hbm, 156, rfl⟩
abbrev main_v118 : Ref sig .tc := ⟨.hbm, 157, rfl⟩
abbrev main_c_30 : Ref sig .tc := ⟨.hbm, 158, rfl⟩
abbrev main_v119 : Ref sig .tc := ⟨.hbm, 159, rfl⟩
abbrev main_v120 : Ref sig .tc := ⟨.hbm, 160, rfl⟩
abbrev main_c_31 : Ref sig .tc := ⟨.hbm, 161, rfl⟩
abbrev main_v121 : Ref sig .tc := ⟨.hbm, 162, rfl⟩
abbrev main_v122 : Ref sig .tc := ⟨.hbm, 163, rfl⟩
abbrev main_c_32 : Ref sig .tc := ⟨.hbm, 164, rfl⟩
abbrev main_v123 : Ref sig .tc := ⟨.hbm, 165, rfl⟩
abbrev main_v124 : Ref sig .tc := ⟨.hbm, 166, rfl⟩
abbrev main_c_33 : Ref sig .tc := ⟨.hbm, 167, rfl⟩
abbrev main_v125 : Ref sig .tc := ⟨.hbm, 168, rfl⟩
abbrev main_v126 : Ref sig .tc := ⟨.hbm, 169, rfl⟩
abbrev main_c_34 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_c_35 : Ref sig .tc := ⟨.hbm, 183, rfl⟩
abbrev main_v139 : Ref sig .tc := ⟨.hbm, 184, rfl⟩
abbrev main_v140 : Ref sig .tc := ⟨.hbm, 185, rfl⟩
abbrev main_c_36 : Ref sig .tc := ⟨.hbm, 186, rfl⟩
abbrev main_v141 : Ref sig .tc := ⟨.hbm, 187, rfl⟩
abbrev main_v142 : Ref sig .tc := ⟨.hbm, 188, rfl⟩
abbrev main_c_37 : Ref sig .tc := ⟨.hbm, 189, rfl⟩
abbrev main_v143 : Ref sig .tc := ⟨.hbm, 190, rfl⟩
abbrev main_v144 : Ref sig .tc := ⟨.hbm, 191, rfl⟩
abbrev main_c_38 : Ref sig .tc := ⟨.hbm, 192, rfl⟩
abbrev main_v145 : Ref sig .tc := ⟨.hbm, 193, rfl⟩
abbrev main_v146 : Ref sig .tc := ⟨.hbm, 194, rfl⟩
abbrev main_c_39 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_40 : Ref sig .tc := ⟨.hbm, 208, rfl⟩
abbrev main_v159 : Ref sig .tc := ⟨.hbm, 209, rfl⟩
abbrev main_v160 : Ref sig .tc := ⟨.hbm, 210, rfl⟩
abbrev main_c_41 : Ref sig .tc := ⟨.hbm, 211, rfl⟩
abbrev main_v161 : Ref sig .tc := ⟨.hbm, 212, rfl⟩
abbrev main_v162 : Ref sig .tc := ⟨.hbm, 213, rfl⟩
abbrev main_c_42 : Ref sig .tc := ⟨.hbm, 214, rfl⟩
abbrev main_v163 : Ref sig .tc := ⟨.hbm, 215, rfl⟩
abbrev main_v164 : Ref sig .tc := ⟨.hbm, 216, rfl⟩
abbrev main_c_43 : Ref sig .tc := ⟨.hbm, 217, rfl⟩
abbrev main_v165 : Ref sig .tc := ⟨.hbm, 218, rfl⟩
abbrev main_v166 : Ref sig .tc := ⟨.hbm, 219, rfl⟩
abbrev main_c_44 : Ref sig .tc := ⟨.hbm, 220, rfl⟩
abbrev main_v167 : Ref sig .tc := ⟨.hbm, 221, rfl⟩
abbrev main_v168 : Ref sig .tc := ⟨.hbm, 222, rfl⟩
abbrev main_c_45 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_c_46 : Ref sig .tc := ⟨.hbm, 236, rfl⟩
abbrev main_v181 : Ref sig .tc := ⟨.hbm, 237, rfl⟩
abbrev main_v182 : Ref sig .tc := ⟨.hbm, 238, rfl⟩
abbrev main_c_47 : Ref sig .tc := ⟨.hbm, 239, rfl⟩
abbrev main_v183 : Ref sig .tc := ⟨.hbm, 240, rfl⟩
abbrev main_v184 : Ref sig .tc := ⟨.hbm, 241, rfl⟩
abbrev main_c_48 : Ref sig .tc := ⟨.hbm, 242, rfl⟩
abbrev main_v185 : Ref sig .tc := ⟨.hbm, 243, rfl⟩
abbrev main_v186 : Ref sig .tc := ⟨.hbm, 244, rfl⟩
abbrev main_c_49 : Ref sig .tc := ⟨.hbm, 245, rfl⟩
abbrev main_v187 : Ref sig .tc := ⟨.hbm, 246, rfl⟩
abbrev main_v188 : Ref sig .tc := ⟨.hbm, 247, rfl⟩
abbrev main_c_50 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  shapeCasts_S3x33x33x33_S3x35937 : S3x33x33x33.ShapeCasts S3x35937
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  bcast_S8x1024x1024_S8x1x1024x1024_0_2_3 : S8x1024x1024.BroadcastsInDim S8x1x1024x1024 (![0, 2, 3] : Fin 3 → Fin S8x1x1024x1024.rank)
  transposes_S3x8x1024x1024_S8x3x1024x1024_1_0_2_3 : S3x8x1024x1024.Transposes [1, 0, 2, 3] S8x3x1024x1024
  bcast_S8x1x1024x1024_S8x3x1024x1024_0_1_2_3 : S8x1x1024x1024.BroadcastsInDim S8x3x1024x1024 (![0, 1, 2, 3] : Fin 4 → Fin S8x3x1024x1024.rank)
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Trilinear.lean ====
/-
  Trilinear interpolation in a 33×33×33 colour cube, one pixel and one output channel at a time.

  A pixel's three components (r, g, b), each divided by the bin width, give a cell of the cube — the floor,
  clamped to 0 … 31 — and a fractional position inside it.  The value is the weighted sum of the cube's
  eight corners of that cell.  Two arrangements of that sum are written here as scalar functions:

  * `oneHotCell`: the cube laid out as a table `T` of 1152 rows (the (b, g) pairs, 33 · b + g, padded) by 128
    columns (r, padded).  A weighted indicator over the rows — the four (b, g) corners with their bilinear
    weights, zero elsewhere — is contracted against the table; the resulting 128 numbers are then multiplied
    by a weighted indicator over the columns (r and r + 1 with their linear weights) and summed.
  * `cornerCell`: the cube flattened to 35937 entries, position 1089 · b + 33 · g + r; the eight corners are
    looked up one by one and added with their trilinear weights, starting from zero.

  The integer arithmetic is kept as 32-bit word arithmetic, exactly as both programs spell it.
-/
import Idealize.ShloMosaic.PureOps
import Idealize.ShloMosaic.PureOps.Ideal
import Idealize.ShloMosaic.Lib.ValueIdx

noncomputable section

namespace Cert.Lut3D

open Idealize.ShloMosaic Idealize.ShloMosaic.ValueIdx

/-- A pixel component in units of the bin width (the f32 nearest 1.000001 / 32). -/
def scaled (x : EReal) : EReal := Ideal.div x (Ideal.ofBits .f32 0x3D000008#32)

/-- The cell number of a component: the floor of the scaled value clamped to 0 … 31, as a 32-bit word. -/
def cellOf (x : EReal) : BitVec 32 :=
  Ideal.fptosi 32 (min ((31 : ℝ) : EReal) (max (0 : EReal) (Ideal.liftRound Int.floor (scaled x))))

/-- The position inside the cell: the scaled value less the (clamped) cell number. -/
def fracOf (x : EReal) : EReal := scaled x - (((cellOf x).toInt : ℝ) : EReal)

/-- A weight at the position a word names, zero elsewhere. -/
def pick (k : Nat) (j : BitVec 32) (w : EReal) : EReal :=
  Scalar.select (IntOp.cmpi .eq (BitVec.ofNat 32 k) j) w (0 : EReal)

/-- A (b, g) row number, clamped to 0 … 1088. -/
def rowOf (b g : BitVec 32) : BitVec 32 :=
  IntOp.minsi 1088#32 (IntOp.maxsi 0#32 (IntOp.addi (IntOp.muli b 33#32) g))

/-- The weighted indicator over the 1152 table rows: the four (b, g) corners of the cell. -/
def rowWeight (xg xb : EReal) (k : Fin 1152) : EReal :=
  ((pick k.val (rowOf (cellOf xb) (cellOf xg)) ((1 - fracOf xb) * (1 - fracOf xg))
      + pick k.val (rowOf (cellOf xb) (IntOp.addi (cellOf xg) 1#32)) ((1 - fracOf xb) * fracOf xg))
      + pick k.val (rowOf (IntOp.addi (cellOf xb) 1#32) (cellOf xg)) (fracOf xb * (1 - fracOf xg)))
      + pick k.val (rowOf (IntOp.addi (cellOf xb) 1#32) (IntOp.addi (cellOf xg) 1#32)) (fracOf xb * fracOf xg)

/-- The weighted indicator over the 128 table columns: r and r + 1 (clamped to 0 … 32). -/
def colWeight (xr : EReal) (n : Fin 128) : EReal :=
  pick n.val (cellOf xr) (1 - fracOf xr)
    + pick n.val (IntOp.minsi 32#32 (IntOp.maxsi 0#32 (IntOp.addi (cellOf xr) 1#32))) (fracOf xr)

/-- The table arrangement: contract the row indicator against the table, weigh the columns, add up. -/
def oneHotCell (T : Fin 1152 → Fin 128 → EReal) (xr xg xb : EReal) : EReal :=
  ∑ n : Fin 128, (∑ k : Fin 1152, rowWeight xg xb k * T k n) * colWeight xr n

/-- A flat position as the reference normalises it: a negative one is counted from the end. -/
def wrapPos (s : BitVec 32) : BitVec 32 :=
  Scalar.select (IntOp.cmpi .slt s 0#32) (IntOp.addi s 35937#32) s

/-- The flat position of corner (db, dg, dr) given as the three offsets added to the cell's own position. -/
def cornerPos (xr xg xb : EReal) (c1 c2 c3 : BitVec 32) : BitVec 32 :=
  wrapPos (IntOp.addi (IntOp.addi (IntOp.addi
    (IntOp.addi (IntOp.addi (IntOp.muli (cellOf xb) 1089#32) (IntOp.muli (cellOf xg) 33#32)) (cellOf xr)) c1) c2) c3)

/-- The flat cube read at a word, the word taken as a signed number and clamped into the cube. -/
def lookup (L : Fin 35937 → EReal) (s : BitVec 32) : EReal :=
  L ⟨min s.toInt.toNat 35936, by omega⟩

/-- The corner arrangement: zero plus the eight corners in the order (db, dg, dr) = 000, 001, 010, … , 111. -/
def cornerCell (L : Fin 35937 → EReal) (xr xg xb : EReal) : EReal :=
  ((((((((0 : EReal)
    + (((1 - fracOf xb) * (1 - fracOf xg)) * (1 - fracOf xr)) * lookup L (cornerPos xr xg xb 0#32 0#32 0#32))
    + (((1 - fracOf xb) * (1 - fracOf xg)) * fracOf xr) * lookup L (cornerPos xr xg xb 0#32 0#32 1#32))
    + (((1 - fracOf xb) * fracOf xg) * (1 - fracOf xr)) * lookup L (cornerPos xr xg xb 0#32 33#32 0#32))
    + (((1 - fracOf xb) * fracOf xg) * fracOf xr) * lookup L (cornerPos xr xg xb 0#32 33#32 1#32))
    + ((fracOf xb * (1 - fracOf xg)) * (1 - fracOf xr)) * lookup L (cornerPos xr xg xb 1089#32 0#32 0#32))
    + ((fracOf xb * (1 - fracOf xg)) * fracOf xr) * lookup L (cornerPos xr xg xb 1089#32 0#32 1#32))
    + ((fracOf xb * fracOf xg) * (1 - fracOf xr)) * lookup L (cornerPos xr xg xb 1089#32 33#32 0#32))
    + ((fracOf xb * fracOf xg) * fracOf xr) * lookup L (cornerPos xr xg xb 1089#32 33#32 1#32)

/-- The whole image in the table arrangement: pixel (b, ·, h, w) of `x` against channel `c` of the padded table. -/
def tableImage (T : (⟨3, ![3, 1152, 128]⟩ : Shape).Idx → EReal) (x : (⟨4, ![8, 3, 1024, 1024]⟩ : Shape).Idx → EReal) :
    (⟨4, ![8, 3, 1024, 1024]⟩ : Shape).Idx → EReal :=
  fun i => oneHotCell (fun k n => T (ix3 (i 1) k n))
    (x (ix4 (i 0) 0 (i 2) (i 3))) (x (ix4 (i 0) 1 (i 2) (i 3))) (x (ix4 (i 0) 2 (i 2) (i 3)))

end Cert.Lut3D

end
-- ==== Proof.Consts.lean ====
/-
  The float constants the two programs spell, as the extended reals their bit patterns denote: zero, one,
  thirty-one (the last cell number) and the bin width (8388616 / 2^28, a positive real).  They are stated in
  one place so that the pattern decoder is unfolded once.
-/
import Idealize.ShloMosaic.PureOps.Ideal

noncomputable section

namespace Cert.Lut3D.Consts

open Idealize.ShloMosaic

/-- `+0.0` denotes `0`. -/
theorem ofBits_zero : Ideal.ofBits .f32 0x00000000#32 = (0 : EReal) := by
  simp [Ideal.ofBits, Ideal.ieee]

/-- `1.0` denotes `1`. -/
theorem ofBits_one : Ideal.ofBits .f32 0x3F800000#32 = (1 : EReal) := by
  simp [Ideal.ofBits, Ideal.ieee, -EReal.coe_mul]; norm_num

/-- `31.0` denotes `31`. -/
theorem ofBits_31 : Ideal.ofBits .f32 0x41F80000#32 = ((31 : ℝ) : EReal) := by
  simp [Ideal.ofBits, Ideal.ieee, -EReal.coe_mul]; norm_num

/-- The bin width's pattern denotes the real 8388616 / 268435456. -/
theorem ofBits_bin : Ideal.ofBits .f32 0x3D000008#32 = ((8388616 / 268435456 : ℝ) : EReal) := by
  simp [Ideal.ofBits, Ideal.ieee, -EReal.coe_mul]; norm_num

/-- The integer word 31 converted to a float is the real 31. -/
theorem toInt_31 : (((31#32 : BitVec 32).toInt : ℝ) : EReal) = ((31 : ℝ) : EReal) := by
  norm_num [BitVec.toInt]

/-- The integer word 0 converted to a float is 0. -/
theorem toInt_0 : (((0#32 : BitVec 32).toInt : ℝ) : EReal) = (0 : EReal) := by
  simp

end Cert.Lut3D.Consts

end
-- ==== Proof.Words.lean ====
/-
  Small natural numbers as 32-bit words: on numbers below 2^31 the programs' word operations — sum, product, signed
  maximum and minimum, equality and signed comparison — are the operations on the numbers themselves.
-/
import Idealize.ShloMosaic.PureOps
import Mathlib.Tactic.Ring
import Mathlib.Tactic.Linarith

namespace Cert.Lut3D.Words

open Idealize.ShloMosaic

theorem toNat_ofNat_small (a : ℕ) (h : a < 2 ^ 31) : (BitVec.ofNat 32 a).toNat = a := by
  rw [BitVec.toNat_ofNat]; exact Nat.mod_eq_of_lt (by omega)

theorem toInt_ofNat_small (a : ℕ) (h : a < 2 ^ 31) : (BitVec.ofNat 32 a).toInt = (a : ℤ) := by
  have e := BitVec.toInt_eq_toNat_cond (BitVec.ofNat 32 a)
  rw [toNat_ofNat_small a h] at e
  rw [e, if_pos (by omega)]

theorem addi_ofNat (a b : ℕ) : IntOp.addi (BitVec.ofNat 32 a) (BitVec.ofNat 32 b) = BitVec.ofNat 32 (a + b) := by
  unfold IntOp.addi; exact (BitVec.ofNat_add ..).symm

theorem muli_ofNat (a b : ℕ) : IntOp.muli (BitVec.ofNat 32 a) (BitVec.ofNat 32 b) = BitVec.ofNat 32 (a * b) := by
  unfold IntOp.muli; exact (BitVec.ofNat_mul ..).symm

theorem slt_ofNat (a b : ℕ) (ha : a < 2 ^ 31) (hb : b < 2 ^ 31) :
    (BitVec.ofNat 32 a).slt (BitVec.ofNat 32 b) = decide (a < b) := by
  unfold BitVec.slt
  rw [toInt_ofNat_small a ha, toInt_ofNat_small b hb]
  simp

theorem maxsi_ofNat (a b : ℕ) (ha : a < 2 ^ 31) (hb : b < 2 ^ 31) :
    IntOp.maxsi (BitVec.ofNat 32 a) (BitVec.ofNat 32 b) = BitVec.ofNat 32 (max a b) := by
  unfold IntOp.maxsi
  rw [slt_ofNat b a hb ha]
  by_cases h : b < a
  · simp [h, Nat.max_eq_left (Nat.le_of_lt h)]
  · simp [h, Nat.max_eq_right (Nat.le_of_not_lt h)]

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [slt_ofNat a b ha hb]
  by_cases h : a < b
  · simp [h, Nat.min_eq_left (Nat.le_of_lt h)]
  · simp [h, Nat.min_eq_right (Nat.le_of_not_lt h)]

theorem cmpi_eq_ofNat (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  by_cases h : a = b
  · subst h; simp
  · have : BitVec.ofNat 32 a ≠ BitVec.ofNat 32 b := fun e => h (by
      have := congrArg BitVec.toNat e
      rwa [toNat_ofNat_small a ha, toNat_ofNat_small b hb] at this)
    simp [h, this]

theorem cmpi_slt_zero_ofNat (a : ℕ) (ha : a < 2 ^ 31) :
    IntOp.cmpi .slt (BitVec.ofNat 32 a) 0#32 = 0#1 := by
  unfold IntOp.cmpi
  show BitVec.ofBool ((BitVec.ofNat 32 a).slt (BitVec.ofNat 32 0)) = 0#1
  rw [slt_ofNat a 0 ha (by norm_num)]
  simp

end Cert.Lut3D.Words
-- ==== Proof.Algebra.lean ====
/-
  The two arrangements of the trilinear sum agree on real inputs.

  For a real pixel component the scaled value, its clamped floor (a number 0 … 31) and the fractional position are
  real.  The weighted indicator over the table rows has at most four non-zero entries, so its contraction with a
  table column is the four-term bilinear combination of that column; the weighted indicator over the columns picks
  columns r and r + 1.  Row 33·b + g, column r of the padded table is position 1089·b + 33·g + r of the flat cube, and
  the eight products of weights are the trilinear weights: the two sums are equal by distributivity in ℝ.
-/
import proofs.«408813_j21191368639341_4_alg».proof.Proof.Trilinear
import proofs.«408813_j21191368639341_4_alg».proof.Proof.Consts
import proofs.«408813_j21191368639341_4_alg».proof.Proof.Words
import Mathlib.Tactic.Ring
import Mathlib.Tactic.Linarith
import Mathlib.Tactic.NormNum
import Mathlib.Tactic.Push

noncomputable section

namespace Cert.Lut3D

open Idealize.ShloMosaic

/-! ## One component: the cell and the position inside it -/

/-- The bin width as a real number. -/
def binR : ℝ := 8388616 / 268435456

theorem scaled_coe (a : ℝ) : scaled (a : EReal) = ((a * (1 / binR) : ℝ) : EReal) := by
  unfold scaled binR
  rw [Consts.ofBits_bin, Ideal.div_coe (by norm_num), ← EReal.coe_mul]

/-- Converting a number 0 … 31 to a word gives that number. -/
theorem fptosi_natCast (n : ℕ) (h : n ≤ 31) : Ideal.fptosi 32 (((n : ℝ)) : EReal) = BitVec.ofNat 32 n := by
  unfold Ideal.fptosi
  rw [Ideal.toIntClamped_coe]
  have h0 : (0 : ℝ) ≤ (n : ℝ) := Nat.cast_nonneg n
  rw [if_pos h0, Int.floor_natCast]
  have e : max (-((2 ^ (32 - 1) : ℕ) : ℤ)) (min (((2 ^ (32 - 1) : ℕ) : ℤ) - 1) (n : ℤ)) = (n : ℤ) := by
    norm_num; omega
  rw [e]; exact BitVec.ofInt_natCast ..

/-- The cell of a real component is a number 0 … 31. -/
theorem cell_real (a : ℝ) : ∃ n : ℕ, n ≤ 31 ∧ cellOf (a : EReal) = BitVec.ofNat 32 n := by
  unfold cellOf
  rw [scaled_coe, Ideal.liftRound_coe]
  generalize ⌊a * (1 / binR)⌋ = z
  refine ⟨(min 31 (max 0 z)).toNat, by omega, ?_⟩
  have e : min ((31 : ℝ) : EReal) (max (0 : EReal) (((z : ℤ) : ℝ) : EReal))
      = ((((min 31 (max 0 z)).toNat : ℕ) : ℝ) : EReal) := by
    rw [← EReal.coe_zero, ← EReal.coe_strictMono.monotone.map_max, ← EReal.coe_strictMono.monotone.map_min]
    congr 1
    have e2 : (((min 31 (max 0 z)).toNat : ℕ) : ℝ) = ((min 31 (max 0 z) : ℤ) : ℝ) := by
      rw [← Int.cast_natCast, Int.toNat_of_nonneg (by omega)]
    rw [e2]; push_cast; rfl
  rw [e]; exact fptosi_natCast _ (by omega)

/-- The position inside the cell of a real component is real. -/
theorem frac_real (a : ℝ) : ∃ f : ℝ, fracOf (a : EReal) = (f : EReal) :=
  ⟨a * (1 / binR) - ((cellOf (a : EReal)).toInt : ℝ), by unfold fracOf; rw [scaled_coe, ← EReal.coe_sub]⟩

/-! ## The words of the two index computations -/

open Words

theorem addi_one_ofNat (a : ℕ) : IntOp.addi (BitVec.ofNat 32 a) 1#32 = BitVec.ofNat 32 (a + 1) :=
  addi_ofNat a 1

/-- The row number of cell (b, g) is 33·b + g; the clamp to 0 … 1088 does nothing for b, g ≤ 32. -/
theorem rowOf_ofNat (b g : ℕ) (hb : b ≤ 32) (hg : g ≤ 32) :
    rowOf (BitVec.ofNat 32 b) (BitVec.ofNat 32 g) = BitVec.ofNat 32 (b * 33 + g) := by
  unfold rowOf
  rw [muli_ofNat, addi_ofNat, maxsi_ofNat 0 _ (by norm_num) (by omega), minsi_ofNat 1088 _ (by norm_num) (by omega)]
  congr 1; omega

/-- The clamp of r + 1 to 0 … 32 does nothing for r ≤ 31. -/
theorem next_ofNat (r : ℕ) (hr : r ≤ 31) :
    IntOp.minsi 32#32 (IntOp.maxsi 0#32 (IntOp.addi (BitVec.ofNat 32 r) 1#32)) = BitVec.ofNat 32 (r + 1) := by
  rw [addi_one_ofNat, maxsi_ofNat 0 _ (by norm_num) (by omega), minsi_ofNat 32 _ (by norm_num) (by omega)]
  congr 1; omega

/-- A weight picked at a position named by a small number. -/
theorem pick_ofNat (k j : ℕ) (hk : k < 2 ^ 31) (hj : j < 2 ^ 31) (w : EReal) :
    pick k (BitVec.ofNat 32 j) w = if k = j then w else 0 := by
  unfold pick
  rw [cmpi_eq_ofNat k j hk hj]
  by_cases h : k = j <;> simp [h, Scalar.select]

/-- A corner's flat position is in range, so neither the wrap-around nor the clamp of the lookup does anything. -/
theorem lookup_wrap_ofNat (L : Fin 35937 → EReal) (s : ℕ) (hs : s ≤ 35936) :
    lookup L (wrapPos (BitVec.ofNat 32 s)) = L ⟨s, by omega⟩ := by
  unfold wrapPos
  rw [cmpi_slt_zero_ofNat s (by omega)]
  show lookup L (BitVec.ofNat 32 s) = _
  unfold lookup
  congr 1
  apply Fin.ext
  show min (BitVec.ofNat 32 s).toInt.toNat 35936 = s
  rw [toInt_ofNat_small s (by omega)]
  simp; omega

/-! ## Sums against an indicator -/

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum against an indicator of one position is the term there (indicator on the left). -/
theorem sum_pick_left {N : ℕ} (f : Fin N → ℝ) (j : ℕ) (hj : j < N) (w : ℝ) :
    ∑ k : Fin N, (if k.val = j then w else 0) * f k = w * f ⟨j, hj⟩ := by
  rw [Finset.sum_eq_single (⟨j, hj⟩ : Fin N)]
  · simp
  · intro k _ hk
    have : k.val ≠ j := fun e => hk (Fin.ext e)
    simp [this]
  · intro h; exact absurd (Finset.mem_univ _) h

/-- The same with the indicator on the right. -/
theorem sum_pick_right {N : ℕ} (f : Fin N → ℝ) (j : ℕ) (hj : j < N) (w : ℝ) :
    ∑ k : Fin N, f k * (if k.val = j then w else 0) = f ⟨j, hj⟩ * w := by
  rw [mul_comm (f _) w, ← sum_pick_left f j hj w]
  exact Finset.sum_congr rfl fun k _ => mul_comm _ _

/-! ## The identity over the reals -/

/-- The table arrangement equals the corner arrangement: real table `T'` whose row 33·b + g, column r is entry
    1089·b + 33·g + r of the flat cube `Lr`; cell (r, g, b) with r, g, b ≤ 31; any real positions. -/
theorem table_eq_corners (T' : Fin 1152 → Fin 128 → ℝ) (Lr : ℕ → ℝ)
    (hT : ∀ (k : Fin 1152) (n : Fin 128), k.val < 1089 → n.val < 33 → T' k n = Lr (k.val * 33 + n.val))
    (r g b : ℕ) (hr : r ≤ 31) (hg : g ≤ 31) (hb : b ≤ 31) (fr fg fb : ℝ) :
    ∑ n : Fin 128, (∑ k : Fin 1152,
        ((((if k.val = b * 33 + g then (1 - fb) * (1 - fg) else 0)
          + (if k.val = b * 33 + (g + 1) then (1 - fb) * fg else 0))
          + (if k.val = (b + 1) * 33 + g then fb * (1 - fg) else 0))
          + (if k.val = (b + 1) * 33 + (g + 1) then fb * fg else 0)) * T' k n)
        * ((if n.val = r then 1 - fr else 0) + (if n.val = r + 1 then fr else 0))
      = ((((((((0 : ℝ)
        + (((1 - fb) * (1 - fg)) * (1 - fr)) * Lr (b * 1089 + g * 33 + r + 0 + 0 + 0))
        + (((1 - fb) * (1 - fg)) * fr) * Lr (b * 1089 + g * 33 + r + 0 + 0 + 1))
        + (((1 - fb) * fg) * (1 - fr)) * Lr (b * 1089 + g * 33 + r + 0 + 33 + 0))
        + (((1 - fb) * fg) * fr) * Lr (b * 1089 + g * 33 + r + 0 + 33 + 1))
        + ((fb * (1 - fg)) * (1 - fr)) * Lr (b * 1089 + g * 33 + r + 1089 + 0 + 0))
        + ((fb * (1 - fg)) * fr) * Lr (b * 1089 + g * 33 + r + 1089 + 0 + 1))
        + ((fb * fg) * (1 - fr)) * Lr (b * 1089 + g * 33 + r + 1089 + 33 + 0))
        + ((fb * fg) * fr) * Lr (b * 1089 + g * 33 + r + 1089 + 33 + 1) := by
  have hk00 : b * 33 + g < 1152 := by omega
  have hk01 : b * 33 + (g + 1) < 1152 := by omega
  have hk10 : (b + 1) * 33 + g < 1152 := by omega
  have hk11 : (b + 1) * 33 + (g + 1) < 1152 := by omega
  have hr0 : r < 128 := by omega
  have hr1 : r + 1 < 128 := by omega
  have inner : ∀ n : Fin 128, (∑ k : Fin 1152,
        ((((if k.val = b * 33 + g then (1 - fb) * (1 - fg) else 0)
          + (if k.val = b * 33 + (g + 1) then (1 - fb) * fg else 0))
          + (if k.val = (b + 1) * 33 + g then fb * (1 - fg) else 0))
          + (if k.val = (b + 1) * 33 + (g + 1) then fb * fg else 0)) * T' k n)
      = (((1 - fb) * (1 - fg)) * T' ⟨_, hk00⟩ n + ((1 - fb) * fg) * T' ⟨_, hk01⟩ n
          + (fb * (1 - fg)) * T' ⟨_, hk10⟩ n) + (fb * fg) * T' ⟨_, hk11⟩ n := by
    intro n
    simp only [(add_mul : ∀ x y z : ℝ, (x + y) * z = x * z + y * z), Finset.sum_add_distrib]
    rw [sum_pick_left (fun k => T' k n) _ hk00, sum_pick_left (fun k => T' k n) _ hk01,
      sum_pick_left (fun k => T' k n) _ hk10, sum_pick_left (fun k => T' k n) _ hk11]
  simp only [inner, (mul_add : ∀ x y z : ℝ, x * (y + z) = x * y + x * z), Finset.sum_add_distrib]
  rw [sum_pick_right (fun n => (((1 - fb) * (1 - fg)) * T' ⟨_, hk00⟩ n + ((1 - fb) * fg) * T' ⟨_, hk01⟩ n
          + (fb * (1 - fg)) * T' ⟨_, hk10⟩ n) + (fb * fg) * T' ⟨_, hk11⟩ n) r hr0,
    sum_pick_right (fun n => (((1 - fb) * (1 - fg)) * T' ⟨_, hk00⟩ n + ((1 - fb) * fg) * T' ⟨_, hk01⟩ n
          + (fb * (1 - fg)) * T' ⟨_, hk10⟩ n) + (fb * fg) * T' ⟨_, hk11⟩ n) (r + 1) hr1]
  rw [hT ⟨_, hk00⟩ ⟨r, hr0⟩ (by show b * 33 + g < 1089; omega) (by show r < 33; omega),
    hT ⟨_, hk01⟩ ⟨r, hr0⟩ (by show b * 33 + (g + 1) < 1089; omega) (by show r < 33; omega),
    hT ⟨_, hk10⟩ ⟨r, hr0⟩ (by show (b + 1) * 33 + g < 1089; omega) (by show r < 33; omega),
    hT ⟨_, hk11⟩ ⟨r, hr0⟩ (by show (b + 1) * 33 + (g + 1) < 1089; omega) (by show r < 33; omega),
    hT ⟨_, hk00⟩ ⟨r + 1, hr1⟩ (by show b * 33 + g < 1089; omega) (by show r + 1 < 33; omega),
    hT ⟨_, hk01⟩ ⟨r + 1, hr1⟩ (by show b * 33 + (g + 1) < 1089; omega) (by show r + 1 < 33; omega),
    hT ⟨_, hk10⟩ ⟨r + 1, hr1⟩ (by show (b + 1) * 33 + g < 1089; omega) (by show r + 1 < 33; omega),
    hT ⟨_, hk11⟩ ⟨r + 1, hr1⟩ (by show (b + 1) * 33 + (g + 1) < 1089; omega) (by show r + 1 < 33; omega)]
  have e1 : (b * 33 + g) * 33 + r = b * 1089 + g * 33 + r + 0 + 0 + 0 := by ring
  have e2 : (b * 33 + g) * 33 + (r + 1) = b * 1089 + g * 33 + r + 0 + 0 + 1 := by ring
  have e3 : (b * 33 + (g + 1)) * 33 + r = b * 1089 + g * 33 + r + 0 + 33 + 0 := by ring
  have e4 : (b * 33 + (g + 1)) * 33 + (r + 1) = b * 1089 + g * 33 + r + 0 + 33 + 1 := by ring
  have e5 : ((b + 1) * 33 + g) * 33 + r = b * 1089 + g * 33 + r + 1089 + 0 + 0 := by ring
  have e6 : ((b + 1) * 33 + g) * 33 + (r + 1) = b * 1089 + g * 33 + r + 1089 + 0 + 1 := by ring
  have e7 : ((b + 1) * 33 + (g + 1)) * 33 + r = b * 1089 + g * 33 + r + 1089 + 33 + 0 := by ring
  have e8 : ((b + 1) * 33 + (g + 1)) * 33 + (r + 1) = b * 1089 + g * 33 + r + 1089 + 33 + 1 := by ring
  show _ = _
  simp only [e1, e2, e3, e4, e5, e6, e7, e8]
  ring

/-! ## The identity over the extended reals, on real inputs -/

theorem coe_ite_zero (c : Prop) [Decidable c] (x : ℝ) :
    (((if c then x else 0 : ℝ)) : EReal) = if c then (x : EReal) else 0 := by
  split <;> simp

/-- On a real table, a real cube and a real pixel the table arrangement and the corner arrangement agree, given that
    row k < 1089, column n < 33 of the table is entry 33·k + n of the flat cube. -/
theorem oneHot_eq_corner (T : Fin 1152 → Fin 128 → EReal) (L : Fin 35937 → EReal)
    (hT : ∀ (k : Fin 1152) (n : Fin 128) (hk : k.val < 1089) (hn : n.val < 33),
      T k n = L ⟨k.val * 33 + n.val, by omega⟩)
    (hTfin : ∀ k n, ∃ r : ℝ, T k n = (r : EReal))
    (hLfin : ∀ i, ∃ r : ℝ, L i = (r : EReal))
    (xr xg xb : EReal) (hxr : ∃ a : ℝ, xr = a) (hxg : ∃ a : ℝ, xg = a) (hxb : ∃ a : ℝ, xb = a) :
    oneHotCell T xr xg xb = cornerCell L xr xg xb := by
  choose T' hT' using hTfin
  choose L' hL' using hLfin
  obtain ⟨ar, rfl⟩ := hxr
  obtain ⟨ag, rfl⟩ := hxg
  obtain ⟨ab, rfl⟩ := hxb
  obtain ⟨r, hr, hcr⟩ := cell_real ar
  obtain ⟨g, hg, hcg⟩ := cell_real ag
  obtain ⟨b, hb, hcb⟩ := cell_real ab
  obtain ⟨fr, hfr⟩ := frac_real ar
  obtain ⟨fg, hfg⟩ := frac_real ag
  obtain ⟨fb, hfb⟩ := frac_real ab
  -- the flat cube as a real function of the position
  let Lr : ℕ → ℝ := fun i => if h : i < 35937 then L' ⟨i, h⟩ else 0
  have hLr : ∀ (s : ℕ) (hs : s < 35937), Lr s = L' ⟨s, hs⟩ := fun s hs => dif_pos hs
  have hTL : ∀ (k : Fin 1152) (n : Fin 128), k.val < 1089 → n.val < 33 → T' k n = Lr (k.val * 33 + n.val) := by
    intro k n hk hn
    have h1 := hT k n hk hn
    rw [hT', hL'] at h1
    rw [hLr _ (by omega)]
    exact EReal.coe_injective h1
  have hlook : ∀ s, s ≤ 35936 → lookup L (wrapPos (BitVec.ofNat 32 s)) = ((Lr s : ℝ) : EReal) := by
    intro s hs
    rw [lookup_wrap_ofNat L s hs, hL', hLr s (by omega)]
  -- the row indicator
  have hrow : ∀ k : Fin 1152, rowWeight (ag : EReal) (ab : EReal) k
      = ((((((if k.val = b * 33 + g then (1 - fb) * (1 - fg) else 0)
          + (if k.val = b * 33 + (g + 1) then (1 - fb) * fg else 0))
          + (if k.val = (b + 1) * 33 + g then fb * (1 - fg) else 0))
          + (if k.val = (b + 1) * 33 + (g + 1) then fb * fg else 0) : ℝ)) : EReal) := by
    intro k
    have hk : k.val < 2 ^ 31 := lt_trans k.isLt (by norm_num)
    unfold rowWeight
    rw [hcg, hcb, hfg, hfb, addi_one_ofNat, addi_one_ofNat,
      rowOf_ofNat b g (by omega) (by omega), rowOf_ofNat b (g + 1) (by omega) (by omega),
      rowOf_ofNat (b + 1) g (by omega) (by omega), rowOf_ofNat (b + 1) (g + 1) (by omega) (by omega),
      pick_ofNat _ _ hk (by omega), pick_ofNat _ _ hk (by omega), pick_ofNat _ _ hk (by omega),
      pick_ofNat _ _ hk (by omega)]
    simp only [EReal.coe_add, coe_ite_zero, EReal.coe_mul, EReal.coe_sub, EReal.coe_one]
  -- the column indicator
  have hcol : ∀ n : Fin 128, colWeight (ar : EReal) n
      = (((if n.val = r then 1 - fr else 0) + (if n.val = r + 1 then fr else 0) : ℝ) : EReal) := by
    intro n
    have hn : n.val < 2 ^ 31 := lt_trans n.isLt (by norm_num)
    unfold colWeight
    rw [hcr, hfr, next_ofNat r hr, pick_ofNat _ _ hn (by omega), pick_ofNat _ _ hn (by omega)]
    simp only [EReal.coe_add, coe_ite_zero, EReal.coe_sub, EReal.coe_one]
  have hleft : oneHotCell T (ar : EReal) (ag : EReal) (ab : EReal)
      = ((∑ n : Fin 128, (∑ k : Fin 1152,
        ((((if k.val = b * 33 + g then (1 - fb) * (1 - fg) else 0)
          + (if k.val = b * 33 + (g + 1) then (1 - fb) * fg else 0))
          + (if k.val = (b + 1) * 33 + g then fb * (1 - fg) else 0))
          + (if k.val = (b + 1) * 33 + (g + 1) then fb * fg else 0)) * T' k n)
        * ((if n.val = r then 1 - fr else 0) + (if n.val = r + 1 then fr else 0)) : ℝ) : EReal) := by
    unfold oneHotCell
    simp only [hrow, hcol, hT', ← EReal.coe_mul, ← coe_sum]
  have hright : cornerCell L (ar : EReal) (ag : EReal) (ab : EReal)
      = ((((((((((0 : ℝ)
        + (((1 - fb) * (1 - fg)) * (1 - fr)) * Lr (b * 1089 + g * 33 + r + 0 + 0 + 0))
        + (((1 - fb) * (1 - fg)) * fr) * Lr (b * 1089 + g * 33 + r + 0 + 0 + 1))
        + (((1 - fb) * fg) * (1 - fr)) * Lr (b * 1089 + g * 33 + r + 0 + 33 + 0))
        + (((1 - fb) * fg) * fr) * Lr (b * 1089 + g * 33 + r + 0 + 33 + 1))
        + ((fb * (1 - fg)) * (1 - fr)) * Lr (b * 1089 + g * 33 + r + 1089 + 0 + 0))
        + ((fb * (1 - fg)) * fr) * Lr (b * 1089 + g * 33 + r + 1089 + 0 + 1))
        + ((fb * fg) * (1 - fr)) * Lr (b * 1089 + g * 33 + r + 1089 + 33 + 0))
        + ((fb * fg) * fr) * Lr (b * 1089 + g * 33 + r + 1089 + 33 + 1) : ℝ) : EReal) := by
    unfold cornerCell cornerPos
    rw [hcr, hcg, hcb, hfr, hfg, hfb]
    simp only [muli_ofNat, addi_ofNat]
    rw [hlook _ (by omega), hlook _ (by omega), hlook _ (by omega), hlook _ (by omega),
      hlook _ (by omega), hlook _ (by omega), hlook _ (by omega), hlook _ (by omega)]
    simp only [EReal.coe_add, EReal.coe_mul, EReal.coe_sub, EReal.coe_one, EReal.coe_zero]
  rw [hleft, hright, table_eq_corners T' Lr hTL r g b hr hg hb fr fg fb]

end Cert.Lut3D

end
-- ==== Proof.RefCell.lean ====
/-
  The reference's result at one element.  Element (b, c, h, w) is the corner arrangement `cornerCell` of channel `c`
  of the flattened cube against pixel (b, ·, h, w); and the flattened cube read at a position is the cube at the
  position's three digits in base 33.
-/
import proofs.«408813_j21191368639341_4_alg».proof.Proof.Gen.ReferenceIdeal.Read
import proofs.«408813_j21191368639341_4_alg».proof.Proof.Trilinear
import proofs.«408813_j21191368639341_4_alg».proof.Proof.Consts
import Idealize.ShloMosaic.Lib.ValueIdx
import Idealize.ShloMosaic.Lib.ValueLayout
import Idealize.ShloMosaic.Lib.Pipeline.Value

noncomputable section

namespace Cert.Lut3D

open Idealize.ShloMosaic Idealize.ShloMosaic.ValueIdx Cert.ReferenceIdeal Cert.ReferenceIdeal.Gen

section Gather
variable {α : Type}

/-- The gather of a two-axis table [3, 35937] along its second axis at one start index per pixel: element
    (c, b, h, w) of the result is row c of the table at the start index of pixel (b, h, w), that index read as a
    signed number and clamped into 0 … 35936.  Row axis: no start, the result's first coordinate as offset.  Column
    axis: collapsed, so no offset; its start is the clamped index. -/
theorem gather_flat_apply {wd : Nat} (tbl : S3x35937.Idx → α) (idx : IVec S8x1024x1024x1 wd)
    (c : Fin 3) (b : Fin 8) (h w : Fin 1024) :
    Host.gather gather_S3x35937_S8x1024x1024x1_S3x8x1024x1024_0_1_n_n_1_3_31 tbl idx (ix4 c b h w)
      = tbl (ix2 c ⟨min (idx (ix4 b h w 0)).toInt.toNat 35936, by omega⟩) := by
  unfold Host.gather
  congr 1
  funext a
  refine Fin.ext ?_
  match a with
  | ⟨0, _⟩ =>
    show GatherDims.start _ (ix4 c b h w) idx 0 + GatherDims.batchCoord _ (ix4 c b h w) 0
      + GatherDims.offCoord _ (ix4 c b h w) 0 = c.val
    have h0 : (0 : Fin 2) ∈ GatherDims.sKept gather_S3x35937_S8x1024x1024x1_S3x8x1024x1024_0_1_n_n_1_3_31 :=
      (GatherDims.mem_sKept _ _).mpr ⟨by decide, List.not_mem_nil⟩
    rw [GatherDims.batchCoord_eq_zero _ _ _ List.not_mem_nil]
    unfold GatherDims.start GatherDims.offCoord
    rw [dif_neg (by decide), dif_pos h0]
    have hidx : List.idxOf (0 : Fin 2)
        (GatherDims.sKept gather_S3x35937_S8x1024x1024x1_S3x8x1024x1024_0_1_n_n_1_3_31) = 0 := by decide
    simp only [hidx, Nat.zero_add]
    rfl
  | ⟨1, _⟩ =>
    show GatherDims.start _ (ix4 c b h w) idx 1 + GatherDims.batchCoord _ (ix4 c b h w) 1
      + GatherDims.offCoord _ (ix4 c b h w) 1 = min (idx (ix4 b h w 0)).toInt.toNat 35936
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S3x35937_S8x1024x1024x1_S3x8x1024x1024_0_1_n_n_1_3_31
      from List.mem_singleton.mpr rfl)]
    have hsi : GatherDims.siIdx gather_S3x35937_S8x1024x1024x1_S3x8x1024x1024_0_1_n_n_1_3_31 (ix4 c b h w)
        ⟨List.idxOf (1 : Fin 2) (GatherDims.startIndexMap gather_S3x35937_S8x1024x1024x1_S3x8x1024x1024_0_1_n_n_1_3_31),
          List.idxOf_lt_length_iff.2 (List.mem_singleton.mpr rfl)⟩ = ix4 b h w 0 := by
      funext k; refine Fin.ext ?_
      match k with
      | ⟨0, _⟩ => rfl
      | ⟨1, _⟩ => rfl
      | ⟨2, _⟩ => rfl
      | ⟨3, _⟩ => rfl
    rw [hsi]
    rfl

end Gather

/-- The same read for a table of extended reals, as the clamped look-up of row c at the pixel's start index. -/
theorem gather_lookup (tbl : FVec Ideal S3x35937 .f32) (idx : IVec S8x1024x1024x1 32)
    (c : Fin 3) (b : Fin 8) (h w : Fin 1024) :
    Host.gather gather_S3x35937_S8x1024x1024x1_S3x8x1024x1024_0_1_n_n_1_3_31 tbl idx (ix4 c b h w)
      = lookup (fun i => tbl (ix2 c i)) (idx (ix4 b h w 0)) :=
  gather_flat_apply tbl idx c b h w

section Pixel

open Cert.ReferenceIdeal.Read

variable (x : FVec Ideal S8x3x1024x1024 .f32)

/-- Component a of pixel (b, h, w): its cell number. -/
theorem cell4 (b : Fin 8) (a : Fin 3) (h w : Fin 1024) :
    val_main_v4 (F := Ideal) x (ix4 b a h w) = cellOf (x (ix4 b a h w)) := by
  simp only [val_main_v4_apply, val_main_v3_apply, val_main_call0_v4_apply, val_main_call0_v3_apply, val_main_c_apply,
    val_main_call0_v2_apply, val_main_call0_v1_apply, val_main_call0_v0_apply, val_main_cst_0_apply,
    val_main_v2_apply, val_main_v1_apply, val_main_v0_apply, val_main_cst_apply]
  unfold cellOf scaled
  rw [← Consts.toInt_31, ← Consts.ofBits_zero]
  rfl

/-- Component a of pixel (b, h, w): its position inside the cell. -/
theorem frac4 (b : Fin 8) (a : Fin 3) (h w : Fin 1024) :
    val_main_v6 (F := Ideal) x (ix4 b a h w) = fracOf (x (ix4 b a h w)) := by
  simp only [val_main_v6_apply, val_main_v5_apply, cell4, val_main_v1_apply, val_main_v0_apply, val_main_cst_apply]
  rfl

/-- The row-major position of pixel (b, h, w) in an 8 × 1024 × 1024 array splits back into its coordinates. -/
theorem pix_digits (b : Fin 8) (h w : Fin 1024) :
    ((b.val * 1024 + h.val) * 1024 + w.val) / 1048576 = b.val ∧
    ((b.val * 1024 + h.val) * 1024 + w.val) / 1024 % 1024 = h.val ∧
    ((b.val * 1024 + h.val) * 1024 + w.val) % 1024 = w.val := by
  have hb := b.isLt; have hh := h.isLt; have hw := w.isLt
  refine ⟨?_, ?_, ?_⟩ <;> omega

/-- Channel 0 sliced out and the unit axis dropped: pixel (b, h, w) reads element (b, 0, h, w). -/
theorem idx_ch0 (b : Fin 8) (h w : Fin 1024) : idx_main_v7 (idx_main_v8 (ix3 b h w)) = ix4 b 0 h w := by
  funext a
  match a with
  | ⟨0, _⟩ => exact Fin.ext (pix_digits b h w).1
  | ⟨1, _⟩ => rfl
  | ⟨2, _⟩ => exact Fin.ext (pix_digits b h w).2.1
  | ⟨3, _⟩ => exact Fin.ext (pix_digits b h w).2.2

/-- Channel 1 likewise. -/
theorem idx_ch1 (b : Fin 8) (h w : Fin 1024) : idx_main_v9 (idx_main_v10 (ix3 b h w)) = ix4 b 1 h w := by
  funext a
  match a with
  | ⟨0, _⟩ => exact Fin.ext (pix_digits b h w).1
  | ⟨1, _⟩ => rfl
  | ⟨2, _⟩ => exact Fin.ext (pix_digits b h w).2.1
  | ⟨3, _⟩ => exact Fin.ext (pix_digits b h w).2.2

/-- Channel 2 likewise. -/
theorem idx_ch2 (b : Fin 8) (h w : Fin 1024) : idx_main_v11 (idx_main_v12 (ix3 b h w)) = ix4 b 2 h w := by
  funext a
  match a with
  | ⟨0, _⟩ => exact Fin.ext (pix_digits b h w).1
  | ⟨1, _⟩ => rfl
  | ⟨2, _⟩ => exact Fin.ext (pix_digits b h w).2.1
  | ⟨3, _⟩ => exact Fin.ext (pix_digits b h w).2.2

/-- The r cell of pixel (b, h, w). -/
theorem cellR (b : Fin 8) (h w : Fin 1024) :
    val_main_v8 (F := Ideal) x (ix3 b h w) = cellOf (x (ix4 b 0 h w)) := by
  rw [val_main_v8_apply, val_main_v7_apply, idx_ch0, cell4]

/-- The g cell of pixel (b, h, w). -/
theorem cellG (b : Fin 8) (h w : Fin 1024) :
    val_main_v10 (F := Ideal) x (ix3 b h w) = cellOf (x (ix4 b 1 h w)) := by
  rw [val_main_v10_apply, val_main_v9_apply, idx_ch1, cell4]

/-- The b cell of pixel (b, h, w). -/
theorem cellB (b : Fin 8) (h w : Fin 1024) :
    val_main_v12 (F := Ideal) x (ix3 b h w) = cellOf (x (ix4 b 2 h w)) := by
  rw [val_main_v12_apply, val_main_v11_apply, idx_ch2, cell4]

/-- The r position of pixel (b, h, w) inside its cell. -/
theorem fracR (b : Fin 8) (h w : Fin 1024) :
    val_main_v14 (F := Ideal) x (ix3 b h w) = fracOf (x (ix4 b 0 h w)) := by
  rw [val_main_v14_apply, val_main_v13_apply,
    show idx_main_v13 (idx_main_v14 (ix3 b h w)) = ix4 b 0 h w from idx_ch0 b h w, frac4]

/-- The g position of pixel (b, h, w) inside its cell. -/
theorem fracG (b : Fin 8) (h w : Fin 1024) :
    val_main_v16 (F := Ideal) x (ix3 b h w) = fracOf (x (ix4 b 1 h w)) := by
  rw [val_main_v16_apply, val_main_v15_apply,
    show idx_main_v15 (idx_main_v16 (ix3 b h w)) = ix4 b 1 h w from idx_ch1 b h w, frac4]

/-- The b position of pixel (b, h, w) inside its cell. -/
theorem fracB (b : Fin 8) (h w : Fin 1024) :
    val_main_v18 (F := Ideal) x (ix3 b h w) = fracOf (x (ix4 b 2 h w)) := by
  rw [val_main_v18_apply, val_main_v17_apply,
    show idx_main_v17 (idx_main_v18 (ix3 b h w)) = ix4 b 2 h w from idx_ch2 b h w, frac4]

/-- The flat position of the cell's own corner: 1089 · b + 33 · g + r in word arithmetic. -/
theorem base3 (b : Fin 8) (h w : Fin 1024) :
    val_main_v25 (F := Ideal) x (ix3 b h w)
      = IntOp.addi (IntOp.addi (IntOp.muli (cellOf (x (ix4 b 2 h w))) 1089#32)
          (IntOp.muli (cellOf (x (ix4 b 1 h w))) 33#32)) (cellOf (x (ix4 b 0 h w))) := by
  simp only [val_main_v25_apply, val_main_v24_apply, val_main_v21_apply, val_main_v23_apply, val_main_v20_apply,
    val_main_v22_apply, val_main_c_1_apply, val_main_c_2_apply, cellB, cellG, cellR]

/-- One minus a position, the constant one written as its bit pattern. -/
theorem one_sub (t : EReal) : FloatOps.subf (F := Ideal) (φ := .f32) (FloatOps.ofBits .f32 0x3F800000#32) t = 1 - t := by
  show Ideal.ofBits .f32 0x3F800000#32 - t = 1 - t
  rw [Consts.ofBits_one]

theorem oneSubB (b : Fin 8) (h w : Fin 1024) :
    val_main_v28 (F := Ideal) x (ix3 b h w) = 1 - fracOf (x (ix4 b 2 h w)) := by
  simp only [val_main_v28_apply, val_main_v27_apply, val_main_cst_4_apply, fracB, one_sub]

theorem oneSubG (b : Fin 8) (h w : Fin 1024) :
    val_main_v30 (F := Ideal) x (ix3 b h w) = 1 - fracOf (x (ix4 b 1 h w)) := by
  simp only [val_main_v30_apply, val_main_v29_apply, val_main_cst_5_apply, fracG, one_sub]

theorem oneSubR (b : Fin 8) (h w : Fin 1024) :
    val_main_v32 (F := Ideal) x (ix3 b h w) = 1 - fracOf (x (ix4 b 0 h w)) := by
  simp only [val_main_v32_apply, val_main_v31_apply, val_main_cst_6_apply, fracR, one_sub]

theorem oneSubR' (b : Fin 8) (h w : Fin 1024) :
    val_main_v74 (F := Ideal) x (ix3 b h w) = 1 - fracOf (x (ix4 b 0 h w)) := by
  simp only [val_main_v74_apply, val_main_v73_apply, val_main_cst_17_apply, fracR, one_sub]

theorem oneSubG' (b : Fin 8) (h w : Fin 1024) :
    val_main_v116 (F := Ideal) x (ix3 b h w) = 1 - fracOf (x (ix4 b 1 h w)) := by
  simp only [val_main_v116_apply, val_main_v115_apply, val_main_cst_28_apply, fracG, one_sub]

theorem oneSubR'' (b : Fin 8) (h w : Fin 1024) :
    val_main_v118 (F := Ideal) x (ix3 b h w) = 1 - fracOf (x (ix4 b 0 h w)) := by
  simp only [val_main_v118_apply, val_main_v117_apply, val_main_cst_29_apply, fracR, one_sub]

theorem oneSubR''' (b : Fin 8) (h w : Fin 1024) :
    val_main_v160 (F := Ideal) x (ix3 b h w) = 1 - fracOf (x (ix4 b 0 h w)) := by
  simp only [val_main_v160_apply, val_main_v159_apply, val_main_cst_40_apply, fracR, one_sub]

/-- A weight spread over the channel axis is read at the pixel. -/
theorem idx_wt (b : Fin 8) (c : Fin 3) (h w : Fin 1024) :
    idx_main_v48 (idx_main_v50 (ix4 b c h w)) = ix3 b h w := by
  funext a
  match a with
  | ⟨0, _⟩ => rfl
  | ⟨1, _⟩ => rfl
  | ⟨2, _⟩ => rfl

/-- The gathered array with its two leading axes exchanged. -/
theorem idx_tr (b : Fin 8) (c : Fin 3) (h w : Fin 1024) : idx_main_v49 (ix4 b c h w) = ix4 c b h w := by
  funext a
  match a with
  | ⟨0, _⟩ => rfl
  | ⟨1, _⟩ => rfl
  | ⟨2, _⟩ => rfl
  | ⟨3, _⟩ => rfl

/-- The start indices with a trailing unit axis are read at the pixel. -/
theorem idx_st (b : Fin 8) (h w : Fin 1024) : idx_main_v44 (ix4 b h w 0) = ix3 b h w := by
  funext a
  match a with
  | ⟨0, _⟩ => rfl
  | ⟨1, _⟩ => rfl
  | ⟨2, _⟩ => rfl

/-! The eight flat positions, in the order of the sum. -/

theorem pos1 (b : Fin 8) (h w : Fin 1024) :
    val_main_v43 (F := Ideal) x (ix3 b h w)
      = cornerPos (x (ix4 b 0 h w)) (x (ix4 b 1 h w)) (x (ix4 b 2 h w)) 0#32 0#32 0#32 := by
  unfold cornerPos wrapPos
  simp only [val_main_v43_apply, val_main_v40_apply, val_main_v42_apply, val_main_v38_apply, val_main_v36_apply,
    val_main_v34_apply, val_main_v33_apply, val_main_v35_apply, val_main_v37_apply, val_main_v39_apply,
    val_main_v41_apply, val_main_c_7_apply, val_main_c_8_apply, val_main_c_9_apply, val_main_c_10_apply,
    val_main_c_11_apply, base3]

theorem pos2 (b : Fin 8) (h w : Fin 1024) :
    val_main_v63 (F := Ideal) x (ix3 b h w)
      = cornerPos (x (ix4 b 0 h w)) (x (ix4 b 1 h w)) (x (ix4 b 2 h w)) 0#32 0#32 1#32 := by
  unfold cornerPos wrapPos
  simp only [val_main_v63_apply, val_main_v60_apply, val_main_v62_apply, val_main_v58_apply, val_main_v56_apply,
    val_main_v54_apply, val_main_v53_apply, val_main_v55_apply, val_main_v57_apply, val_main_v59_apply,
    val_main_v61_apply, val_main_c_12_apply, val_main_c_13_apply, val_main_c_14_apply, val_main_c_15_apply,
    val_main_c_16_apply, base3]

theorem pos3 (b : Fin 8) (h w : Fin 1024) :
    val_main_v85 (F := Ideal) x (ix3 b h w)
      = cornerPos (x (ix4 b 0 h w)) (x (ix4 b 1 h w)) (x (ix4 b 2 h w)) 0#32 33#32 0#32 := by
  unfold cornerPos wrapPos
  simp only [val_main_v85_apply, val_main_v82_apply, val_main_v84_apply, val_main_v80_apply, val_main_v78_apply,
    val_main_v76_apply, val_main_v75_apply, val_main_v77_apply, val_main_v79_apply, val_main_v81_apply,
    val_main_v83_apply, val_main_c_18_apply, val_main_c_19_apply, val_main_c_20_apply, val_main_c_21_apply,
    val_main_c_22_apply, base3]

theorem pos4 (b : Fin 8) (h w : Fin 1024) :
    val_main_v105 (F := Ideal) x (ix3 b h w)
      = cornerPos (x (ix4 b 0 h w)) (x (ix4 b 1 h w)) (x (ix4 b 2 h w)) 0#32 33#32 1#32 := by
  unfold cornerPos wrapPos
  simp only [val_main_v105_apply, val_main_v102_apply, val_main_v104_apply, val_main_v100_apply, val_main_v98_apply,
    val_main_v96_apply, val_main_v95_apply, val_main_v97_apply, val_main_v99_apply, val_main_v101_apply,
    val_main_v103_apply, val_main_c_23_apply, val_main_c_24_apply, val_main_c_25_apply, val_main_c_26_apply,
    val_main_c_27_apply, base3]

theorem pos5 (b : Fin 8) (h w : Fin 1024) :
    val_main_v129 (F := Ideal) x (ix3 b h w)
      = cornerPos (x (ix4 b 0 h w)) (x (ix4 b 1 h w)) (x (ix4 b 2 h w)) 1089#32 0#32 0#32 := by
  unfold cornerPos wrapPos
  simp only [val_main_v129_apply, val_main_v126_apply, val_main_v128_apply, val_main_v124_apply, val_main_v122_apply,
    val_main_v120_apply, val_main_v119_apply, val_main_v121_apply, val_main_v123_apply, val_main_v125_apply,
    val_main_v127_apply, val_main_c_30_apply, val_main_c_31_apply, val_main_c_32_apply, val_main_c_33_apply,
    val_main_c_34_apply, base3]

theorem pos6 (b : Fin 8) (h w : Fin 1024) :
    val_main_v149 (F := Ideal) x (ix3 b h w)
      = cornerPos (x (ix4 b 0 h w)) (x (ix4 b 1 h w)) (x (ix4 b 2 h w)) 1089#32 0#32 1#32 := by
  unfold cornerPos wrapPos
  simp only [val_main_v149_apply, val_main_v146_apply, val_main_v148_apply, val_main_v144_apply, val_main_v142_apply,
    val_main_v140_apply, val_main_v139_apply, val_main_v141_apply, val_main_v143_apply, val_main_v145_apply,
    val_main_v147_apply, val_main_c_35_apply, val_main_c_36_apply, val_main_c_37_apply, val_main_c_38_apply,
    val_main_c_39_apply, base3]

theorem pos7 (b : Fin 8) (h w : Fin 1024) :
    val_main_v171 (F := Ideal) x (ix3 b h w)
      = cornerPos (x (ix4 b 0 h w)) (x (ix4 b 1 h w)) (x (ix4 b 2 h w)) 1089#32 33#32 0#32 := by
  unfold cornerPos wrapPos
  simp only [val_main_v171_apply, val_main_v168_apply, val_main_v170_apply, val_main_v166_apply, val_main_v164_apply,
    val_main_v162_apply, val_main_v161_apply, val_main_v163_apply, val_main_v165_apply, val_main_v167_apply,
    val_main_v169_apply, val_main_c_41_apply, val_main_c_42_apply, val_main_c_43_apply, val_main_c_44_apply,
    val_main_c_45_apply, base3]

theorem pos8 (b : Fin 8) (h w : Fin 1024) :
    val_main_v191 (F := Ideal) x (ix3 b h w)
      = cornerPos (x (ix4 b 0 h w)) (x (ix4 b 1 h w)) (x (ix4 b 2 h w)) 1089#32 33#32 1#32 := by
  unfold cornerPos wrapPos
  simp only [val_main_v191_apply, val_main_v188_apply, val_main_v190_apply, val_main_v186_apply, val_main_v184_apply,
    val_main_v182_apply, val_main_v181_apply, val_main_v183_apply, val_main_v185_apply, val_main_v187_apply,
    val_main_v189_apply, val_main_c_46_apply, val_main_c_47_apply, val_main_c_48_apply, val_main_c_49_apply,
    val_main_c_50_apply, base3]

/-! The eight trilinear weights, in the order of the sum. -/

theorem wt1 (b : Fin 8) (h w : Fin 1024) :
    val_main_v47 (F := Ideal) x (ix3 b h w)
      = ((1 - fracOf (x (ix4 b 2 h w))) * (1 - fracOf (x (ix4 b 1 h w)))) * (1 - fracOf (x (ix4 b 0 h w))) := by
  simp only [val_main_v47_apply, val_main_v46_apply, oneSubB, oneSubG, oneSubR, Ideal.mulf_def]

theorem wt2 (b : Fin 8) (h w : Fin 1024) :
    val_main_v67 (F := Ideal) x (ix3 b h w)
      = ((1 - fracOf (x (ix4 b 2 h w))) * (1 - fracOf (x (ix4 b 1 h w)))) * fracOf (x (ix4 b 0 h w)) := by
  simp only [val_main_v67_apply, val_main_v66_apply, oneSubB, oneSubG, fracR, Ideal.mulf_def]

theorem wt3 (b : Fin 8) (h w : Fin 1024) :
    val_main_v89 (F := Ideal) x (ix3 b h w)
      = ((1 - fracOf (x (ix4 b 2 h w))) * fracOf (x (ix4 b 1 h w))) * (1 - fracOf (x (ix4 b 0 h w))) := by
  simp only [val_main_v89_apply, val_main_v88_apply, oneSubB, fracG, oneSubR', Ideal.mulf_def]

theorem wt4 (b : Fin 8) (h w : Fin 1024) :
    val_main_v109 (F := Ideal) x (ix3 b h w)
      = ((1 - fracOf (x (ix4 b 2 h w))) * fracOf (x (ix4 b 1 h w))) * fracOf (x (ix4 b 0 h w)) := by
  simp only [val_main_v109_apply, val_main_v108_apply, oneSubB, fracG, fracR, Ideal.mulf_def]

theorem wt5 (b : Fin 8) (h w : Fin 1024) :
    val_main_v133 (F := Ideal) x (ix3 b h w)
      = (fracOf (x (ix4 b 2 h w)) * (1 - fracOf (x (ix4 b 1 h w)))) * (1 - fracOf (x (ix4 b 0 h w))) := by
  simp only [val_main_v133_apply, val_main_v132_apply, fracB, oneSubG', oneSubR'', Ideal.mulf_def]

theorem wt6 (b : Fin 8) (h w : Fin 1024) :
    val_main_v153 (F := Ideal) x (ix3 b h w)
      = (fracOf (x (ix4 b 2 h w)) * (1 - fracOf (x (ix4 b 1 h w)))) * fracOf (x (ix4 b 0 h w)) := by
  simp only [val_main_v153_apply, val_main_v152_apply, fracB, oneSubG', fracR, Ideal.mulf_def]

theorem wt7 (b : Fin 8) (h w : Fin 1024) :
    val_main_v175 (F := Ideal) x (ix3 b h w)
      = (fracOf (x (ix4 b 2 h w)) * fracOf (x (ix4 b 1 h w))) * (1 - fracOf (x (ix4 b 0 h w))) := by
  simp only [val_main_v175_apply, val_main_v174_apply, fracB, fracG, oneSubR''', Ideal.mulf_def]

theorem wt8 (b : Fin 8) (h w : Fin 1024) :
    val_main_v195 (F := Ideal) x (ix3 b h w)
      = (fracOf (x (ix4 b 2 h w)) * fracOf (x (ix4 b 1 h w))) * fracOf (x (ix4 b 0 h w)) := by
  simp only [val_main_v195_apply, val_main_v194_apply, fracB, fracG, fracR, Ideal.mulf_def]

/-! The eight terms: a weight times the flat cube read at a position. -/

variable (lut : FVec Ideal S3x33x33x33 .f32)

theorem term1 (b : Fin 8) (c : Fin 3) (h w : Fin 1024) :
    val_main_v51 (F := Ideal) lut x (ix4 b c h w)
      = (((1 - fracOf (x (ix4 b 2 h w))) * (1 - fracOf (x (ix4 b 1 h w)))) * (1 - fracOf (x (ix4 b 0 h w))))
        * lookup (fun i => val_main_v19 (F := Ideal) lut (ix2 c i))
            (cornerPos (x (ix4 b 0 h w)) (x (ix4 b 1 h w)) (x (ix4 b 2 h w)) 0#32 0#32 0#32) := by
  rw [val_main_v51_apply, val_main_v50_apply, val_main_v48_apply, val_main_v49_apply, idx_wt, idx_tr, wt1]
  unfold val_main_v45
  rw [gather_lookup, val_main_v44_apply, idx_st, pos1]
  rfl

theorem term2 (b : Fin 8) (c : Fin 3) (h w : Fin 1024) :
    val_main_v71 (F := Ideal) lut x (ix4 b c h w)
      = (((1 - fracOf (x (ix4 b 2 h w))) * (1 - fracOf (x (ix4 b 1 h w)))) * fracOf (x (ix4 b 0 h w)))
        * lookup (fun i => val_main_v19 (F := Ideal) lut (ix2 c i))
            (cornerPos (x (ix4 b 0 h w)) (x (ix4 b 1 h w)) (x (ix4 b 2 h w)) 0#32 0#32 1#32) := by
  rw [val_main_v71_apply, val_main_v70_apply, val_main_v68_apply, val_main_v69_apply,
    show idx_main_v68 (idx_main_v70 (ix4 b c h w)) = ix3 b h w from idx_wt b c h w,
    show idx_main_v69 (ix4 b c h w) = ix4 c b h w from idx_tr b c h w, wt2]
  unfold val_main_v65
  rw [gather_lookup, val_main_v64_apply, show idx_main_v64 (ix4 b h w 0) = ix3 b h w from idx_st b h w, pos2]
  rfl

theorem term3 (b : Fin 8) (c : Fin 3) (h w : Fin 1024) :
    val_main_v93 (F := Ideal) lut x (ix4 b c h w)
      = (((1 - fracOf (x (ix4 b 2 h w))) * fracOf (x (ix4 b 1 h w))) * (1 - fracOf (x (ix4 b 0 h w))))
        * lookup (fun i => val_main_v19 (F := Ideal) lut (ix2 c i))
            (cornerPos (x (ix4 b 0 h w)) (x (ix4 b 1 h w)) (x (ix4 b 2 h w)) 0#32 33#32 0#32) := by
  rw [val_main_v93_apply, val_main_v92_apply, val_main_v90_apply, val_main_v91_apply,
    show idx_main_v90 (idx_main_v92 (ix4 b c h w)) = ix3 b h w from idx_wt b c h w,
    show idx_main_v91 (ix4 b c h w) = ix4 c b h w from idx_tr b c h w, wt3]
  unfold val_main_v87
  rw [gather_lookup, val_main_v86_apply, show idx_main_v86 (ix4 b h w 0) = ix3 b h w from idx_st b h w, pos3]
  rfl

theorem term4 (b : Fin 8) (c : Fin 3) (h w : Fin 1024) :
    val_main_v113 (F := Ideal) lut x (ix4 b c h w)
      = (((1 - fracOf (x (ix4 b 2 h w))) * fracOf (x (ix4 b 1 h w))) * fracOf (x (ix4 b 0 h w)))
        * lookup (fun i => val_main_v19 (F := Ideal) lut (ix2 c i))
            (cornerPos (x (ix4 b 0 h w)) (x (ix4 b 1 h w)) (x (ix4 b 2 h w)) 0#32 33#32 1#32) := by
  rw [val_main_v113_apply, val_main_v112_apply, val_main_v110_apply, val_main_v111_apply,
    show idx_main_v110 (idx_main_v112 (ix4 b c h w)) = ix3 b h w from idx_wt b c h w,
    show idx_main_v111 (ix4 b c h w) = ix4 c b h w from idx_tr b c h w, wt4]
  unfold val_main_v107
  rw [gather_lookup, val_main_v106_apply, show idx_main_v106 (ix4 b h w 0) = ix3 b h w from idx_st b h w, pos4]
  rfl

theorem term5 (b : Fin 8) (c : Fin 3) (h w : Fin 1024) :
    val_main_v137 (F := Ideal) lut x (ix4 b c h w)
      = ((fracOf (x (ix4 b 2 h w)) * (1 - fracOf (x (ix4 b 1 h w)))) * (1 - fracOf (x (ix4 b 0 h w))))
        * lookup (fun i => val_main_v19 (F := Ideal) lut (ix2 c i))
            (cornerPos (x (ix4 b 0 h w)) (x (ix4 b 1 h w)) (x (ix4 b 2 h w)) 1089#32 0#32 0#32) := by
  rw [val_main_v137_apply, val_main_v136_apply, val_main_v134_apply, val_main_v135_apply,
    show idx_main_v134 (idx_main_v136 (ix4 b c h w)) = ix3 b h w from idx_wt b c h w,
    show idx_main_v135 (ix4 b c h w) = ix4 c b h w from idx_tr b c h w, wt5]
  unfold val_main_v131
  rw [gather_lookup, val_main_v130_apply, show idx_main_v130 (ix4 b h w 0) = ix3 b h w from idx_st b h w, pos5]
  rfl

theorem term6 (b : Fin 8) (c : Fin 3) (h w : Fin 1024) :
    val_main_v157 (F := Ideal) lut x (ix4 b c h w)
      = ((fracOf (x (ix4 b 2 h w)) * (1 - fracOf (x (ix4 b 1 h w)))) * fracOf (x (ix4 b 0 h w)))
        * lookup (fun i => val_main_v19 (F := Ideal) lut (ix2 c i))
            (cornerPos (x (ix4 b 0 h w)) (x (ix4 b 1 h w)) (x (ix4 b 2 h w)) 1089#32 0#32 1#32) := by
  rw [val_main_v157_apply, val_main_v156_apply, val_main_v154_apply, val_main_v155_apply,
    show idx_main_v154 (idx_main_v156 (ix4 b c h w)) = ix3 b h w from idx_wt b c h w,
    show idx_main_v155 (ix4 b c h w) = ix4 c b h w from idx_tr b c h w, wt6]
  unfold val_main_v151
  rw [gather_lookup, val_main_v150_apply, show idx_main_v150 (ix4 b h w 0) = ix3 b h w from idx_st b h w, pos6]
  rfl

theorem term7 (b : Fin 8) (c : Fin 3) (h w : Fin 1024) :
    val_main_v179 (F := Ideal) lut x (ix4 b c h w)
      = ((fracOf (x (ix4 b 2 h w)) * fracOf (x (ix4 b 1 h w))) * (1 - fracOf (x (ix4 b 0 h w))))
        * lookup (fun i => val_main_v19 (F := Ideal) lut (ix2 c i))
            (cornerPos (x (ix4 b 0 h w)) (x (ix4 b 1 h w)) (x (ix4 b 2 h w)) 1089#32 33#32 0#32) := by
  rw [val_main_v179_apply, val_main_v178_apply, val_main_v176_apply, val_main_v177_apply,
    show idx_main_v176 (idx_main_v178 (ix4 b c h w)) = ix3 b h w from idx_wt b c h w,
    show idx_main_v177 (ix4 b c h w) = ix4 c b h w from idx_tr b c h w, wt7]
  unfold val_main_v173
  rw [gather_lookup, val_main_v172_apply, show idx_main_v172 (ix4 b h w 0) = ix3 b h w from idx_st b h w, pos7]
  rfl

theorem term8 (b : Fin 8) (c : Fin 3) (h w : Fin 1024) :
    val_main_v199 (F := Ideal) lut x (ix4 b c h w)
      = ((fracOf (x (ix4 b 2 h w)) * fracOf (x (ix4 b 1 h w))) * fracOf (x (ix4 b 0 h w)))
        * lookup (fun i => val_main_v19 (F := Ideal) lut (ix2 c i))
            (cornerPos (x (ix4 b 0 h w)) (x (ix4 b 1 h w)) (x (ix4 b 2 h w)) 1089#32 33#32 1#32) := by
  rw [val_main_v199_apply, val_main_v198_apply, val_main_v196_apply, val_main_v197_apply,
    show idx_main_v196 (idx_main_v198 (ix4 b c h w)) = ix3 b h w from idx_wt b c h w,
    show idx_main_v197 (ix4 b c h w) = ix4 c b h w from idx_tr b c h w, wt8]
  unfold val_main_v193
  rw [gather_lookup, val_main_v192_apply, show idx_main_v192 (ix4 b h w 0) = ix3 b h w from idx_st b h w, pos8]
  rfl

end Pixel

/-- Element (b, c, h, w) of the reference's result. -/
theorem ref_apply (lut : FVec Ideal S3x33x33x33 .f32) (x : FVec Ideal S8x3x1024x1024 .f32)
    (b : Fin 8) (c : Fin 3) (h w : Fin 1024) :
    Cert.ReferenceIdeal.Read.val_main_v200 (F := Ideal) lut x (ix4 b c h w)
      = cornerCell (fun i => Cert.ReferenceIdeal.Read.val_main_v19 (F := Ideal) lut (ix2 c i))
          (x (ix4 b 0 h w)) (x (ix4 b 1 h w)) (x (ix4 b 2 h w)) := by
  rw [Cert.ReferenceIdeal.Read.val_main_v200_apply, Cert.ReferenceIdeal.Read.val_main_v180_apply,
    Cert.ReferenceIdeal.Read.val_main_v158_apply, Cert.ReferenceIdeal.Read.val_main_v138_apply,
    Cert.ReferenceIdeal.Read.val_main_v114_apply, Cert.ReferenceIdeal.Read.val_main_v94_apply,
    Cert.ReferenceIdeal.Read.val_main_v72_apply, Cert.ReferenceIdeal.Read.val_main_v52_apply,
    Cert.ReferenceIdeal.Read.val_main_v26_apply, Cert.ReferenceIdeal.Read.val_main_cst_3_apply,
    term1, term2, term3, term4, term5, term6, term7, term8]
  unfold cornerCell
  rw [← Consts.ofBits_zero]
  rfl

/-- The flattened cube at position `i` of channel `c` is the cube at (c, i / 1089, i / 33 mod 33, i mod 33). -/
theorem flat_apply (lut : FVec Ideal S3x33x33x33 .f32) (c : Fin 3) (i : Fin 35937) :
    Cert.ReferenceIdeal.Read.val_main_v19 (F := Ideal) lut (ix2 c i)
      = lut (ix4 c ⟨i.val / 1089, by omega⟩ ⟨i.val / 33 % 33, Nat.mod_lt _ (by decide)⟩ ⟨i.val % 33, Nat.mod_lt _ (by decide)⟩) := by
  rw [Cert.ReferenceIdeal.Read.val_main_v19_apply]
  refine congrArg lut ?_
  have hc := c.isLt; have hi := i.isLt
  funext a
  match a with
  | ⟨0, _⟩ => exact Fin.ext (show (c.val * 35937 + i.val) / 35937 = c.val by omega)
  | ⟨1, _⟩ => exact Fin.ext (show (c.val * 35937 + i.val) / 1089 % 33 = i.val / 1089 by omega)
  | ⟨2, _⟩ => exact Fin.ext (show (c.val * 35937 + i.val) / 33 % 33 = i.val / 33 % 33 by omega)
  | ⟨3, _⟩ => exact Fin.ext (show (c.val * 35937 + i.val) % 33 = i.val % 33 by omega)

end Cert.Lut3D

end
-- ==== Proof.Entry.lean ====
/-
  What the kernel's region finds, and what the precondition gives.  The host operations before the region reshape the
  cube [3, 33, 33, 33] to [3, 1089, 33] and pad it with zeros to [3, 1152, 128]: row k < 1089, column n < 33 of channel
  c of the padded table is the cube at (c, k / 33, k mod 33, n); every other entry is zero.  The precondition says that
  every entry of the cube and of the image is a real number.
-/
import proofs.«408813_j21191368639341_4_alg».proof.Proof.Gen.KernelIdeal.Frame
import proofs.«408813_j21191368639341_4_alg».proof.Proof.Gen.Pre_finite_inputs
import proofs.«408813_j21191368639341_4_alg».proof.Defs
import proofs.«408813_j21191368639341_4_alg».proof.Proof.Consts
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll
import Idealize.ShloMosaic.Lib.KernelVsHost

noncomputable section

namespace Cert.Lut3D

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The padded table is the reshaped cube padded with the converted integer zero. -/
theorem table_eq (c : Dev nD) :
    (V (F := Ideal) m c main_v1 : S3x1152x128.Idx → EReal)
      = pad S3x1152x128 ![0, 0, 0] ![0, 63, 95] ![0, 0, 0]
          (shapeCast S3x1089x33 (m ((c.tc : Thread nD τ).loc main_arg0) : S3x33x33x33.Idx → EReal)
            shapeCasts_S3x33x33x33_S3x1089x33)
          (sitofp (F := Ideal) .f32 (constantI S_ 32 0#32))
          pads_S3x1089x33_S3x1152x128_000_0630_0950 h_S_ := by
  dsimp only [Gen.V]
  simp only [Gen.hostOps0, Gen.hostOps0_1, List.flatten_cons, List.flatten_nil, List.append_nil, List.cons_append,
    List.nil_append]
  after_results
  rfl

/-- The padded table as the region finds it, inside the cube's extent. -/
theorem table_inside (c : Dev nD) (ch : Fin 3) (k : Fin 1152) (n : Fin 128) (hk : k.val < 1089) (hn : n.val < 33) :
    (V (F := Ideal) m c main_v1 : S3x1152x128.Idx → EReal) (ix3 ch k n)
      = (m ((c.tc : Thread nD τ).loc main_arg0) : S3x33x33x33.Idx → EReal)
          (ix4 ch ⟨k.val / 33, by omega⟩ ⟨k.val % 33, Nat.mod_lt _ (by decide)⟩ ⟨n.val, hn⟩) := by
  rw [table_eq]
  refine (pad_apply_of_inside _ _ _ _ _ pads_S3x1089x33_S3x1152x128_000_0630_0950 h_S_ (ix3 ch k n)
    (ix3 ch (⟨k.val, hk⟩ : Fin 1089) (⟨n.val, hn⟩ : Fin 33)) (fun a => ?_)).trans ?_
  · match a with
    | ⟨0, _⟩ => show ch.val = 0 + ch.val * (0 + 1); omega
    | ⟨1, _⟩ => show k.val = 0 + k.val * (0 + 1); omega
    | ⟨2, _⟩ => show n.val = 0 + n.val * (0 + 1); omega
  · refine shapeCast_apply _ _ _ _ ?_
    show (S3x33x33x33.rowMajor (ix4 ch (⟨k.val / 33, by omega⟩ : Fin 33) (⟨k.val % 33, Nat.mod_lt _ (by decide)⟩ : Fin 33)
        (⟨n.val, hn⟩ : Fin 33))).val
      = (S3x1089x33.rowMajor (ix3 ch (⟨k.val, hk⟩ : Fin 1089) (⟨n.val, hn⟩ : Fin 33))).val
    rw [Shape.rowMajor_val_four, Shape.rowMajor_val_three]
    show ((ch.val * 33 + k.val / 33) * 33 + k.val % 33) * 33 + n.val = (ch.val * 1089 + k.val) * 33 + n.val
    omega

/-- The padded table as the region finds it, outside the cube's extent: zero. -/
theorem table_outside (c : Dev nD) (ch : Fin 3) (k : Fin 1152) (n : Fin 128) (h : ¬ (k.val < 1089 ∧ n.val < 33)) :
    (V (F := Ideal) m c main_v1 : S3x1152x128.Idx → EReal) (ix3 ch k n) = (0 : EReal) := by
  rw [table_eq]
  have hz : (sitofp (F := Ideal) .f32 (constantI S_ 32 0#32) : S_.Idx → EReal) (Shape.Idx.first h_S_) = (0 : EReal) :=
    Consts.toInt_0
  by_cases hk : k.val < 1089
  · have hn : ¬ n.val < 33 := fun hn => h ⟨hk, hn⟩
    refine (pad_apply_of_not_inside _ _ _ _ _ pads_S3x1089x33_S3x1152x128_000_0630_0950 h_S_ (ix3 ch k n) (2 : Fin 3)
      ?_).trans hz
    show ¬(0 ≤ n.val ∧ (n.val - 0) % (0 + 1) = 0 ∧ (n.val - 0) / (0 + 1) < 33)
    omega
  · refine (pad_apply_of_not_inside _ _ _ _ _ pads_S3x1089x33_S3x1152x128_000_0630_0950 h_S_ (ix3 ch k n) (1 : Fin 3)
      ?_).trans hz
    show ¬(0 ≤ k.val ∧ (k.val - 0) % (0 + 1) = 0 ∧ (k.val - 0) / (0 + 1) < 1089)
    omega

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- Under the precondition every entry of the cube and of the image is a real number. -/
theorem finite_of_pre [Cert.Pre_finite_inputs.Facts] (hpre : Cert.Pre_KernelIdeal m) (c : Dev nD) :
    (∀ i, ∃ r : ℝ, (m ((c.tc : Thread nD τ).loc main_arg0) : S3x33x33x33.Idx → EReal) i = (r : EReal))
    ∧ (∀ i, ∃ r : ℝ, (m ((c.tc : Thread nD τ).loc main_arg1) : S8x3x1024x1024.Idx → EReal) i = (r : EReal)) := by
  haveI : Subsingleton Cert.Pre_finite_inputs.S_.Idx := ⟨fun a b => funext fun d => d.elim0⟩
  have e := congrFun (hpre c) ValueIdx.ix0
  dsimp only [Cert.Pre_finite_inputs.fn] at e
  obtain ⟨h0, h1⟩ := IntOp.andi_eq_one.1 e
  refine ⟨fun i => ?_, fun i => ?_⟩
  · exact real_of_abs_lt_inf ((m ((c.tc : Thread nD τ).loc main_arg0) : S3x33x33x33.Idx → EReal) i)
      (Host.reduce_andi_all _ _ _ _ _ h0 i)
  · exact real_of_abs_lt_inf ((m ((c.tc : Thread nD τ).loc main_arg1) : S8x3x1024x1024.Idx → EReal) i)
      (Host.reduce_andi_all _ _ _ _ _ h1 i)

end Cert.Lut3D

end
-- ==== Proof.KernelCell.lean ====
/-
  The kernel body's result at one element of its output block.  Element (0, c, h, w) of the block is the table
  arrangement `oneHotCell` of channel `c` of the staged table against the pixel (·, h, w) of the staged image tile.

  The body flattens the 8 × 128 pixels of the tile to 1024 rows, row 128 · h + w for pixel (h, w).  Against each
  row it builds the weighted indicator of the four (b, g) corners over the 1152 table rows and the weighted
  indicator of the two r corners over the 128 table columns, contracts the first against each channel's slab of
  the table, multiplies by the second, sums the 128 columns, and lays the 1024 sums back out as 8 × 128.
-/
import proofs.«408813_j21191368639341_4_alg».proof.Proof.Gen.KernelIdeal.Frame
import proofs.«408813_j21191368639341_4_alg».proof.Proof.Trilinear
import proofs.«408813_j21191368639341_4_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.Lut3D

open Idealize.ShloMosaic Idealize.ShloMosaic.ValueIdx Cert.KernelIdeal Cert.KernelIdeal.Gen

/-! ## The row of a pixel, and the layout changes between the tile and the 1024-row matrices -/

/-- Pixel (h, w) of the 8 × 128 tile is row 128 · h + w of the flattened matrices. -/
abbrev rowIx (h : Fin 8) (w : Fin 128) : Fin 1024 := ⟨128 * h.val + w.val, by omega⟩

section Layout
variable {α : Type}

/-- The tile cast to a column of 1024 rows: row 128 · h + w holds entry (h, w). -/
theorem tile_col_apply (x : S8x128.Idx → α) (hc : S8x128.ShapeCasts S1024x1) (h : Fin 8) (w : Fin 128) (u : Fin 1) :
    shapeCast S1024x1 x hc (ix2 (rowIx h w) u) = x (ix2 h w) :=
  shapeCast_apply x hc _ _ (by
    have := u.isLt
    rw [Shape.rowMajor_val_two, Shape.rowMajor_val_two]
    show h.val * 128 + w.val = (128 * h.val + w.val) * 1 + u.val
    omega)

/-- A column of 1024 rows broadcast along `N` columns reads its row. -/
theorem col_bcast_apply {N : Nat} (x : S1024x1.Idx → α) (hb : S1024x1.Broadcasts ⟨2, ![1024, N]⟩) (m : Fin 1024) (k : Fin N) :
    broadcastTo ⟨2, ![1024, N]⟩ x hb (ix2 m k) = x (ix2 m (0 : Fin 1)) := by
  refine broadcastTo_apply x hb (ix2 m k) (ix2 m (0 : Fin 1)) fun ax => ?_
  match ax with
  | ⟨0, _⟩ => rfl
  | ⟨1, _⟩ => rfl

/-- The tile as a column, broadcast along `N` columns: row 128 · h + w reads entry (h, w) at every column. -/
theorem tile_bcast_apply {N : Nat} (x : S8x128.Idx → α) (hc : S8x128.ShapeCasts S1024x1)
    (hb : S1024x1.Broadcasts ⟨2, ![1024, N]⟩) (h : Fin 8) (w : Fin 128) (k : Fin N) :
    broadcastTo ⟨2, ![1024, N]⟩ (shapeCast S1024x1 x hc) hb (ix2 (rowIx h w) k) = x (ix2 h w) :=
  (col_bcast_apply _ hb _ k).trans (tile_col_apply x hc h w 0)

/-- The 1024 row values laid back out as a [1, 8, 128] piece: entry (·, h, w) is row 128 · h + w. -/
theorem rows_tile_apply (x : S1024.Idx → α) (h1 : S1024.ShapeCasts S1024x1) (h2 : S1024x1.ShapeCasts S8x128)
    (h3 : S8x128.ShapeCasts S1x8x128) (u : Fin 1) (h : Fin 8) (w : Fin 128) :
    shapeCast S1x8x128 (shapeCast S8x128 (shapeCast S1024x1 x h1) h2) h3 (ix3 u h w) = x (ix1 (rowIx h w)) := by
  refine (shapeCast_ab_1ab_apply _ h3 u h w).trans ?_
  refine (shapeCast_apply _ h2 (ix2 h w) (ix2 (rowIx h w) (0 : Fin 1)) ?_).trans ?_
  · rw [Shape.rowMajor_val_two, Shape.rowMajor_val_two]
    show (128 * h.val + w.val) * 1 + 0 = h.val * 128 + w.val
    omega
  · refine shapeCast_apply _ h1 _ (ix1 (rowIx h w)) ?_
    rw [Shape.rowMajor_val_two, Shape.rowMajor_val_one]
    show 128 * h.val + w.val = (128 * h.val + w.val) * 1 + 0
    omega

/-- Channel `a` of a [3, 8, 128] array, cut out as a [1, 8, 128] slab and viewed as the tile. -/
theorem chan_apply (X : S3x8x128.Idx → α) (o : Nat) (hs : S3x8x128.Slices ![o, 0, 0] S1x8x128)
    (hc : S1x8x128.ShapeCasts S8x128) (a : Fin 3) (ha : a.val = o) (h : Fin 8) (w : Fin 128) :
    shapeCast S8x128 (extractStridedSlice S1x8x128 ![o, 0, 0] X hs) hc (ix2 h w) = X (ix3 a h w) := by
  refine (shapeCast_1ab_ab_apply _ hc h w).trans ?_
  refine extractStridedSlice_apply _ X hs _ (ix3 a h w) fun ax => ?_
  match ax with
  | ⟨0, _⟩ => exact ha.trans (Nat.add_zero o).symm
  | ⟨1, _⟩ => exact (Nat.zero_add _).symm
  | ⟨2, _⟩ => exact (Nat.zero_add _).symm

end Layout

/-! ## The pixel's cell numbers and fractional positions -/

section Pixel
variable (v0 : Vec Ideal S1x3x8x128 .f32)

/-- A component divided by the bin width. -/
theorem pay2_apply (a : Fin 3) (h : Fin 8) (w : Fin 128) :
    k0_pay2 (F := Ideal) v0 (ix3 a h w) = scaled (v0 (ix4 0 a h w)) := by
  unfold k0_pay2
  show Ideal.div (shapeCast S3x8x128 v0 shapeCasts_S1x3x8x128_S3x8x128 (ix3 a h w)) (Ideal.ofBits .f32 0x3D000008#32) = _
  rw [shapeCast_1abc_abc_apply]
  rfl

/-- Its cell number. -/
theorem pay3_apply (a : Fin 3) (h : Fin 8) (w : Fin 128) :
    k0_pay3 (F := Ideal) v0 (ix3 a h w) = cellOf (v0 (ix4 0 a h w)) := by
  unfold k0_pay3
  show Ideal.fptosi 32 (min (Ideal.ofBits .f32 0x41F80000#32)
    (max (Ideal.ofBits .f32 0x00000000#32) (Ideal.liftRound Int.floor (k0_pay2 (F := Ideal) v0 (ix3 a h w))))) = _
  rw [pay2_apply, Consts.ofBits_zero, Consts.ofBits_31]
  rfl

/-- Its position inside the cell. -/
theorem pay4_apply (a : Fin 3) (h : Fin 8) (w : Fin 128) :
    k0_pay4 (F := Ideal) v0 (ix3 a h w) = fracOf (v0 (ix4 0 a h w)) := by
  unfold k0_pay4
  show k0_pay2 (F := Ideal) v0 (ix3 a h w) - (((k0_pay3 (F := Ideal) v0 (ix3 a h w)).toInt : ℝ) : EReal) = _
  rw [pay2_apply, pay3_apply]
  rfl

end Pixel

section Channels
variable (v0 : Vec Ideal S1x3x8x128 .f32) (h : Fin 8) (w : Fin 128)

/-- The r, g and b cell numbers of pixel (h, w). -/
theorem pay5_apply : k0_pay5 (F := Ideal) v0 (ix2 h w) = cellOf (v0 (ix4 0 0 h w)) := by
  unfold k0_pay5
  exact (chan_apply _ 0 _ _ 0 rfl h w).trans (pay3_apply v0 0 h w)
theorem pay6_apply : k0_pay6 (F := Ideal) v0 (ix2 h w) = cellOf (v0 (ix4 0 1 h w)) := by
  unfold k0_pay6
  exact (chan_apply _ 1 _ _ 1 rfl h w).trans (pay3_apply v0 1 h w)
theorem pay7_apply : k0_pay7 (F := Ideal) v0 (ix2 h w) = cellOf (v0 (ix4 0 2 h w)) := by
  unfold k0_pay7
  exact (chan_apply _ 2 _ _ 2 rfl h w).trans (pay3_apply v0 2 h w)

/-- The r, g and b positions inside the cell. -/
theorem pay8_apply : k0_pay8 (F := Ideal) v0 (ix2 h w) = fracOf (v0 (ix4 0 0 h w)) := by
  unfold k0_pay8
  exact (chan_apply _ 0 _ _ 0 rfl h w).trans (pay4_apply v0 0 h w)
theorem pay9_apply : k0_pay9 (F := Ideal) v0 (ix2 h w) = fracOf (v0 (ix4 0 1 h w)) := by
  unfold k0_pay9
  exact (chan_apply _ 1 _ _ 1 rfl h w).trans (pay4_apply v0 1 h w)
theorem pay10_apply : k0_pay10 (F := Ideal) v0 (ix2 h w) = fracOf (v0 (ix4 0 2 h w)) := by
  unfold k0_pay10
  exact (chan_apply _ 2 _ _ 2 rfl h w).trans (pay4_apply v0 2 h w)

/-- Their complements to one. -/
theorem pay11_apply : k0_pay11 (F := Ideal) v0 (ix2 h w) = 1 - fracOf (v0 (ix4 0 0 h w)) := by
  unfold k0_pay11
  show Ideal.ofBits .f32 0x3F800000#32 - k0_pay8 (F := Ideal) v0 (ix2 h w) = _
  rw [Consts.ofBits_one, pay8_apply]
theorem pay12_apply : k0_pay12 (F := Ideal) v0 (ix2 h w) = 1 - fracOf (v0 (ix4 0 1 h w)) := by
  unfold k0_pay12
  show Ideal.ofBits .f32 0x3F800000#32 - k0_pay9 (F := Ideal) v0 (ix2 h w) = _
  rw [Consts.ofBits_one, pay9_apply]
theorem pay13_apply : k0_pay13 (F := Ideal) v0 (ix2 h w) = 1 - fracOf (v0 (ix4 0 2 h w)) := by
  unfold k0_pay13
  show Ideal.ofBits .f32 0x3F800000#32 - k0_pay10 (F := Ideal) v0 (ix2 h w) = _
  rw [Consts.ofBits_one, pay10_apply]

/-- The row of corner (b, g), clamped. -/
theorem pay14_apply : k0_pay14 (F := Ideal) v0 (ix2 h w)
    = rowOf (cellOf (v0 (ix4 0 2 h w))) (cellOf (v0 (ix4 0 1 h w))) := by
  unfold k0_pay14
  show IntOp.minsi 1088#32 (IntOp.maxsi 0#32 (IntOp.addi (IntOp.muli (k0_pay7 (F := Ideal) v0 (ix2 h w)) 33#32)
    (k0_pay6 (F := Ideal) v0 (ix2 h w)))) = _
  rw [pay7_apply, pay6_apply]
  rfl

/-- The row of corner (b, g + 1), before clamping. -/
theorem pay15_apply : k0_pay15 (F := Ideal) v0 (ix2 h w)
    = IntOp.addi (IntOp.muli (cellOf (v0 (ix4 0 2 h w))) 33#32) (IntOp.addi (cellOf (v0 (ix4 0 1 h w))) 1#32) := by
  unfold k0_pay15
  show IntOp.addi (IntOp.muli (k0_pay7 (F := Ideal) v0 (ix2 h w)) 33#32)
    (IntOp.addi (k0_pay6 (F := Ideal) v0 (ix2 h w)) 1#32) = _
  rw [pay7_apply, pay6_apply]

end Channels

/-! ## The weighted indicators -/

section Indicators
variable (h : Fin 8) (w : Fin 128)

/-- The row of corner (b + 1, g + 1), clamped. -/
theorem pay16_apply (v15 v17 : IVec S8x128 32) :
    k0_pay16 v15 v17 (ix2 h w) = rowOf (IntOp.addi (v17 (ix2 h w)) 1#32) (IntOp.addi (v15 (ix2 h w)) 1#32) := rfl

/-- The row of corner (b + 1, g), clamped, as a column of the 1024 rows. -/
theorem pay20_apply (v15 v17 : IVec S8x128 32) (u : Fin 1) :
    k0_pay20 v15 v17 (ix2 (rowIx h w) u) = rowOf (IntOp.addi (v17 (ix2 h w)) 1#32) (v15 (ix2 h w)) := by
  unfold k0_pay20
  exact tile_col_apply _ _ h w u

/-- The first two corners' weights at table row `k`. -/
theorem pay19_apply (v21 v27 v29 : FVec Ideal S8x128 .f32) (v36 v41 : IVec S8x128 32) (k : Fin 1152) :
    k0_pay19 (F := Ideal) v21 v27 v29 v36 v41 (ix2 (rowIx h w) k)
      = pick k.val (v36 (ix2 h w)) (v29 (ix2 h w) * v27 (ix2 h w))
        + pick k.val (IntOp.minsi 1088#32 (IntOp.maxsi 0#32 (v41 (ix2 h w)))) (v29 (ix2 h w) * v21 (ix2 h w)) := by
  unfold k0_pay19
  simp only [shapeCast_self]
  show Scalar.select (IntOp.cmpi .eq (iota .tc S1024x1152 32 [1] iota_S1024x1152_d1_w32 (ix2 (rowIx h w) k))
        (broadcastTo S1024x1152 (shapeCast S1024x1 v36 shapeCasts_S8x128_S1024x1) broadcasts_S1024x1_S1024x1152 (ix2 (rowIx h w) k)))
      (broadcastTo S1024x1152 (shapeCast S1024x1 (mulf v29 v27) shapeCasts_S8x128_S1024x1) broadcasts_S1024x1_S1024x1152 (ix2 (rowIx h w) k))
      (Ideal.ofBits .f32 0x00000000#32)
    + Scalar.select (IntOp.cmpi .eq (iota .tc S1024x1152 32 [1] iota_S1024x1152_d1_w32 (ix2 (rowIx h w) k))
        (broadcastTo S1024x1152 (shapeCast S1024x1 (minsi (broadcast S8x128 1088#32) (maxsi (broadcast S8x128 0#32) v41)) shapeCasts_S8x128_S1024x1) broadcasts_S1024x1_S1024x1152 (ix2 (rowIx h w) k)))
      (broadcastTo S1024x1152 (shapeCast S1024x1 (mulf v29 v21) shapeCasts_S8x128_S1024x1) broadcasts_S1024x1_S1024x1152 (ix2 (rowIx h w) k))
      (Ideal.ofBits .f32 0x00000000#32) = _
  rw [iota_single_apply, tile_bcast_apply, tile_bcast_apply, tile_bcast_apply, tile_bcast_apply, Consts.ofBits_zero]
  rfl

end Indicators

section Indicators2
variable (h : Fin 8) (w : Fin 128)

/-- All four corners' weights at table row `k`: the first two as given, then corners (b + 1, g) and (b + 1, g + 1). -/
theorem pay21_apply (v65 : IVec S8x128 32) (v68 v69 : FVec Ideal S8x128 .f32) (v87 : FVec Ideal S1024x1152 .f32)
    (v88 : IVec S1024x1 32) (k : Fin 1152) :
    k0_pay21 (F := Ideal) v65 v68 v69 (iota .tc S1024x1152 32 [1] iota_S1024x1152_d1_w32) v87 v88 (ix2 (rowIx h w) k)
      = (v87 (ix2 (rowIx h w) k) + pick k.val (v88 (ix2 (rowIx h w) (0 : Fin 1))) (v68 (ix2 h w)))
        + pick k.val (v65 (ix2 h w)) (v69 (ix2 h w)) := by
  unfold k0_pay21
  simp only [shapeCast_self]
  show (v87 (ix2 (rowIx h w) k)
      + Scalar.select (IntOp.cmpi .eq (iota .tc S1024x1152 32 [1] iota_S1024x1152_d1_w32 (ix2 (rowIx h w) k))
          (broadcastTo S1024x1152 v88 broadcasts_S1024x1_S1024x1152 (ix2 (rowIx h w) k)))
        (broadcastTo S1024x1152 (shapeCast S1024x1 v68 shapeCasts_S8x128_S1024x1) broadcasts_S1024x1_S1024x1152 (ix2 (rowIx h w) k))
        (Ideal.ofBits .f32 0x00000000#32))
    + Scalar.select (IntOp.cmpi .eq (iota .tc S1024x1152 32 [1] iota_S1024x1152_d1_w32 (ix2 (rowIx h w) k))
          (broadcastTo S1024x1152 (shapeCast S1024x1 v65 shapeCasts_S8x128_S1024x1) broadcasts_S1024x1_S1024x1152 (ix2 (rowIx h w) k)))
        (broadcastTo S1024x1152 (shapeCast S1024x1 v69 shapeCasts_S8x128_S1024x1) broadcasts_S1024x1_S1024x1152 (ix2 (rowIx h w) k))
        (Ideal.ofBits .f32 0x00000000#32) = _
  rw [iota_single_apply, col_bcast_apply, tile_bcast_apply, tile_bcast_apply, tile_bcast_apply, Consts.ofBits_zero]
  rfl

/-- The two r corners' weights at table column `n`. -/
theorem pay22_apply (v13 : IVec S8x128 32) (v19 v25 : FVec Ideal S8x128 .f32) (n : Fin 128) :
    k0_pay22 (F := Ideal) v13 v19 v25 (ix2 (rowIx h w) n)
      = pick n.val (v13 (ix2 h w)) (v25 (ix2 h w))
        + pick n.val (IntOp.minsi 32#32 (IntOp.maxsi 0#32 (IntOp.addi (v13 (ix2 h w)) 1#32))) (v19 (ix2 h w)) := by
  unfold k0_pay22
  simp only [shapeCast_self]
  show Scalar.select (IntOp.cmpi .eq (iota .tc S1024x128 32 [1] iota_S1024x128_d1_w32 (ix2 (rowIx h w) n))
        (broadcastTo S1024x128 (shapeCast S1024x1 v13 shapeCasts_S8x128_S1024x1) broadcasts_S1024x1_S1024x128 (ix2 (rowIx h w) n)))
      (broadcastTo S1024x128 (shapeCast S1024x1 v25 shapeCasts_S8x128_S1024x1) broadcasts_S1024x1_S1024x128 (ix2 (rowIx h w) n))
      (Ideal.ofBits .f32 0x00000000#32)
    + Scalar.select (IntOp.cmpi .eq (iota .tc S1024x128 32 [1] iota_S1024x128_d1_w32 (ix2 (rowIx h w) n))
        (broadcastTo S1024x128 (shapeCast S1024x1 (minsi (broadcast S8x128 32#32) (maxsi (broadcast S8x128 0#32) (addi v13 (broadcast S8x128 1#32)))) shapeCasts_S8x128_S1024x1) broadcasts_S1024x1_S1024x128 (ix2 (rowIx h w) n)))
      (broadcastTo S1024x128 (shapeCast S1024x1 v19 shapeCasts_S8x128_S1024x1) broadcasts_S1024x1_S1024x128 (ix2 (rowIx h w) n))
      (Ideal.ofBits .f32 0x00000000#32) = _
  rw [iota_single_apply, tile_bcast_apply, tile_bcast_apply, tile_bcast_apply, tile_bcast_apply, Consts.ofBits_zero]
  rfl

end Indicators2

/-! ## The two indicators of a tile's pixel are the specification's -/

section Weights
variable (v0 : Vec Ideal S1x3x8x128 .f32) (h : Fin 8) (w : Fin 128)

/-- The row indicator the body builds from the tile. -/
abbrev rowsOf (v0 : Vec Ideal S1x3x8x128 .f32) : FVec Ideal S1024x1152 .bf16 :=
  k0_pay21 (F := Ideal) (k0_pay16 (k0_pay6 (F := Ideal) v0) (k0_pay7 (F := Ideal) v0))
    (k0_pay17 (F := Ideal) (k0_pay10 (F := Ideal) v0) (k0_pay12 (F := Ideal) v0))
    (k0_pay18 (F := Ideal) (k0_pay9 (F := Ideal) v0) (k0_pay10 (F := Ideal) v0))
    (iota .tc S1024x1152 32 [1] iota_S1024x1152_d1_w32)
    (k0_pay19 (F := Ideal) (k0_pay9 (F := Ideal) v0) (k0_pay12 (F := Ideal) v0) (k0_pay13 (F := Ideal) v0)
      (k0_pay14 (F := Ideal) v0) (k0_pay15 (F := Ideal) v0))
    (k0_pay20 (k0_pay6 (F := Ideal) v0) (k0_pay7 (F := Ideal) v0))

/-- The column indicator the body builds from the tile. -/
abbrev colsOf (v0 : Vec Ideal S1x3x8x128 .f32) : FVec Ideal S1024x128 .f32 :=
  k0_pay22 (F := Ideal) (k0_pay5 (F := Ideal) v0) (k0_pay8 (F := Ideal) v0) (k0_pay11 (F := Ideal) v0)

theorem rowsOf_apply (k : Fin 1152) :
    rowsOf v0 (ix2 (rowIx h w) k) = rowWeight (v0 (ix4 0 1 h w)) (v0 (ix4 0 2 h w)) k := by
  unfold rowsOf
  rw [pay21_apply, pay19_apply, pay20_apply, pay16_apply]
  show (pick _ _ (k0_pay13 (F := Ideal) v0 (ix2 h w) * k0_pay12 (F := Ideal) v0 (ix2 h w))
        + pick _ _ (k0_pay13 (F := Ideal) v0 (ix2 h w) * k0_pay9 (F := Ideal) v0 (ix2 h w))
        + pick _ _ (k0_pay10 (F := Ideal) v0 (ix2 h w) * k0_pay12 (F := Ideal) v0 (ix2 h w)))
      + pick _ _ (k0_pay10 (F := Ideal) v0 (ix2 h w) * k0_pay9 (F := Ideal) v0 (ix2 h w)) = _
  rw [pay14_apply, pay15_apply, pay6_apply, pay7_apply, pay9_apply, pay10_apply, pay12_apply, pay13_apply]
  rfl

theorem colsOf_apply (n : Fin 128) :
    colsOf v0 (ix2 (rowIx h w) n) = colWeight (v0 (ix4 0 0 h w)) n := by
  unfold colsOf
  rw [pay22_apply, pay5_apply, pay8_apply, pay11_apply]
  rfl

end Weights

/-! ## One channel: the contraction against a table slab, weighed by the column indicator and summed -/

section Contraction

/-- The left operand of the contraction at output (m, ·) and contraction position `q` is read at row `m` … -/
theorem lhs_axis0 (j : S1024x128.Idx) (q : dot_S1024x1152_S1152x128_S1024x128_1_0_0_1_n_n.contr.Idx) :
    (dot_S1024x1152_S1152x128_S1024x128_1_0_0_1_n_n.lhsIdx j q 0).val = (j 0).val := rfl
/-- … and column `q`; -/
theorem lhs_axis1 (j : S1024x128.Idx) (q : dot_S1024x1152_S1152x128_S1024x128_1_0_0_1_n_n.contr.Idx) :
    (dot_S1024x1152_S1152x128_S1024x128_1_0_0_1_n_n.lhsIdx j q 1).val = (q ⟨0, Nat.one_pos⟩).val := rfl
/-- the right operand at output (·, n) is read at row `q` … -/
theorem rhs_axis0 (j : S1024x128.Idx) (q : dot_S1024x1152_S1152x128_S1024x128_1_0_0_1_n_n.contr.Idx) :
    (dot_S1024x1152_S1152x128_S1024x128_1_0_0_1_n_n.rhsIdx j q 0).val = (q ⟨0, Nat.one_pos⟩).val := rfl
/-- … and column `n`. -/
theorem rhs_axis1 (j : S1024x128.Idx) (q : dot_S1024x1152_S1152x128_S1024x128_1_0_0_1_n_n.contr.Idx) :
    (dot_S1024x1152_S1152x128_S1024x128_1_0_0_1_n_n.rhsIdx j q 1).val = (j 1).val := rfl

/-- The contraction into the zero matrix at (m, n): the sum over the 1152 table rows. -/
theorem contract_apply (A : FVec Ideal S1024x1152 .bf16) (R : FVec Ideal S1152x128 .bf16) (m : Fin 1024) (n : Fin 128) :
    matmul dot_S1024x1152_S1152x128_S1024x128_1_0_0_1_n_n none A R (constant (F := Ideal) S1024x128 .f32 0x00000000#32) (ix2 m n)
      = ∑ k : Fin 1152, A (ix2 m k) * R (ix2 k n) := by
  show FloatOps.matmul dot_S1024x1152_S1152x128_S1024x128_1_0_0_1_n_n none A R (constant S1024x128 .f32 0x00000000#32) (ix2 m n) = _
  rw [Ideal.matmul_constant_zero_apply,
    ← Equiv.sum_comp (contrEquiv1 dot_S1024x1152_S1152x128_S1024x128_1_0_0_1_n_n 1152 rfl rfl).symm]
  refine Finset.sum_congr rfl fun k _ => ?_
  have hk := contrEquiv1_symm_val dot_S1024x1152_S1152x128_S1024x128_1_0_0_1_n_n 1152 rfl rfl k
  have el : dot_S1024x1152_S1152x128_S1024x128_1_0_0_1_n_n.lhsIdx (ix2 m n)
      ((contrEquiv1 dot_S1024x1152_S1152x128_S1024x128_1_0_0_1_n_n 1152 rfl rfl).symm k) = ix2 m k :=
    funext fun a => Fin.ext (by
      match a with
      | ⟨0, _⟩ => exact lhs_axis0 _ _
      | ⟨1, _⟩ => exact (lhs_axis1 _ _).trans hk)
  have er : dot_S1024x1152_S1152x128_S1024x128_1_0_0_1_n_n.rhsIdx (ix2 m n)
      ((contrEquiv1 dot_S1024x1152_S1152x128_S1024x128_1_0_0_1_n_n 1152 rfl rfl).symm k) = ix2 k n :=
    funext fun a => Fin.ext (by
      match a with
      | ⟨0, _⟩ => exact (rhs_axis0 _ _).trans hk
      | ⟨1, _⟩ => exact rhs_axis1 _ _)
  rw [el, er]

/-- The sum along the 128 columns, at row `m`. -/
theorem laneSum_apply (X : FVec Ideal S1024x128 .f32) (m : Fin 1024) :
    multiReduction (F := Ideal) .add [1] S1024 X 0x00000000#32 reduces_S1024x128_S1024 (.inl rfl) rfl (ix1 m)
      = ∑ n : Fin 128, X (ix2 m n) := by
  refine (Ideal.multiReduction_add_single X 0x00000000#32 reduces_S1024x128_S1024 (.inl rfl) rfl (ix1 m)).trans ?_
  refine Finset.sum_congr rfl fun n _ => congrArg X (funext fun a => Fin.ext ?_)
  match a with
  | ⟨0, _⟩ => rfl
  | ⟨1, _⟩ => rfl

/-- One channel's row value: contract the row indicator against the slab, weigh the columns, add them up. -/
theorem channel_apply (A : FVec Ideal S1024x1152 .bf16) (B : FVec Ideal S1024x128 .f32) (T : Vec Ideal S1x1152x128 .f32)
    (m : Fin 1024) :
    multiReduction (F := Ideal) .add [1] S1024
        (mulf (matmul dot_S1024x1152_S1152x128_S1024x128_1_0_0_1_n_n none A
          (truncf .bf16 (shapeCast S1152x128 T shapeCasts_S1x1152x128_S1152x128) bitsLt_bf16_f32)
          (constant (F := Ideal) S1024x128 .f32 0x00000000#32)) B)
        0x00000000#32 reduces_S1024x128_S1024 (.inl rfl) rfl (ix1 m)
      = ∑ n : Fin 128, (∑ k : Fin 1152, A (ix2 m k) * T (ix3 (0 : Fin 1) k n)) * B (ix2 m n) := by
  rw [laneSum_apply]
  refine Finset.sum_congr rfl fun n _ => ?_
  show matmul dot_S1024x1152_S1152x128_S1024x128_1_0_0_1_n_n none A _ _ (ix2 m n) * B (ix2 m n) = _
  rw [contract_apply]
  refine congrArg (· * B (ix2 m n)) (Finset.sum_congr rfl fun k _ => congrArg (A (ix2 m k) * ·) ?_)
  show shapeCast S1152x128 T shapeCasts_S1x1152x128_S1152x128 (ix2 k n) = _
  exact shapeCast_1ab_ab_apply T _ k n

end Contraction

/-! ## The block -/

section Block
variable {α : Type}

/-- Off the stacking axis an entry of a [1, 8, 128] piece keeps its coordinates in the [3, 8, 128] stack. -/
theorem stack3_off (c : Fin 3) (h : Fin 8) (w : Fin 128) :
    ∀ b : Fin S1x8x128.rank, b.cast (rfl : S1x8x128.rank = S3x8x128.rank) ≠ (0 : Fin S3x8x128.rank) →
      ((ix3 (0 : Fin 1) h w : S1x8x128.Idx) b).val = ((ix3 c h w : S3x8x128.Idx) (b.cast rfl)).val := fun b hb => by
  match b, hb with
  | ⟨0, _⟩, hb => exact absurd rfl hb
  | ⟨1, _⟩, _ => rfl
  | ⟨2, _⟩, _ => rfl

/-- Three [1, 8, 128] pieces stacked along the first axis: entry (c, h, w) is piece `c` at (0, h, w). -/
theorem stack3_apply (p0 p1 p2 : S1x8x128.Idx → α)
    (hc : Shape.Concatenates [S1x8x128, S1x8x128, S1x8x128] S3x8x128 0) (c : Fin 3) (h : Fin 8) (w : Fin 128) :
    concatenate S3x8x128 0 [⟨S1x8x128, p0⟩, ⟨S1x8x128, p1⟩, ⟨S1x8x128, p2⟩] hc (ix3 c h w)
      = (![p0, p1, p2] : Fin 3 → (S1x8x128.Idx → α)) c (ix3 (0 : Fin 1) h w) := by
  match c with
  | ⟨0, _⟩ =>
    exact concatenate_apply_piece (0 : Fin S3x8x128.rank) [⟨S1x8x128, p0⟩, ⟨S1x8x128, p1⟩, ⟨S1x8x128, p2⟩] hc _ 0
      (Nat.zero_lt_succ _) S1x8x128 p0 rfl rfl 0 rfl (ix3 (0 : Fin 1) h w) (stack3_off _ h w) rfl
  | ⟨1, _⟩ =>
    exact concatenate_apply_piece (0 : Fin S3x8x128.rank) [⟨S1x8x128, p0⟩, ⟨S1x8x128, p1⟩, ⟨S1x8x128, p2⟩] hc _ 1
      (Nat.succ_lt_succ (Nat.zero_lt_succ _)) S1x8x128 p1 rfl rfl 1 rfl (ix3 (0 : Fin 1) h w) (stack3_off _ h w) rfl
  | ⟨2, _⟩ =>
    exact concatenate_apply_piece (0 : Fin S3x8x128.rank) [⟨S1x8x128, p0⟩, ⟨S1x8x128, p1⟩, ⟨S1x8x128, p2⟩] hc _ 2
      (Nat.succ_lt_succ (Nat.succ_lt_succ (Nat.zero_lt_succ _))) S1x8x128 p2 rfl rfl 2 rfl (ix3 (0 : Fin 1) h w) (stack3_off _ h w) rfl

/-- Slab `c` of the staged table, loaded as a [1, 1152, 128] block: entry (·, k, n) is the table's (c, k, n). -/
theorem slab_apply (x0 : Vec Ideal S3x1152x128 .f32) (o : Nat)
    (inb : ∀ a, (![o, 0, 0] : Fin 3 → Nat) a + S1x1152x128.size a ≤ S3x1152x128.size a) (c : Fin 3) (hc : c.val = o)
    (u : Fin 1) (k : Fin 1152) (n : Fin 128) :
    View.ld x0 (Rect.unit (s := S3x1152x128) ![o, 0, 0] S1x1152x128.size inb) (ix3 u k n) = x0 (ix3 c k n) := by
  show x0 _ = x0 _
  refine congrArg x0 (funext fun a => Fin.ext ?_)
  have := u.isLt
  match a with
  | ⟨0, _⟩ => show o + 1 * u.val = c.val; omega
  | ⟨1, _⟩ => show 0 + 1 * k.val = k.val; omega
  | ⟨2, _⟩ => show 0 + 1 * n.val = n.val; omega

/-- The first channel's row values, as the body computes them before the other two. -/
theorem pay23_apply (v13 : IVec S8x128 32) (v19 v25 : FVec Ideal S8x128 .f32) (v65 : IVec S8x128 32)
    (v68 v69 : FVec Ideal S8x128 .f32) (v70 : IVec S1024x1152 32) (v87 : FVec Ideal S1024x1152 .f32)
    (v88 : IVec S1024x1 32) (T : Vec Ideal S1x1152x128 .f32) (m : Fin 1024) :
    k0_pay23 (F := Ideal) v13 v19 v25 v65 v68 v69 v70 v87 v88 T (ix1 m)
      = ∑ n : Fin 128, (∑ k : Fin 1152, k0_pay21 (F := Ideal) v65 v68 v69 v70 v87 v88 (ix2 m k) * T (ix3 (0 : Fin 1) k n))
          * k0_pay22 (F := Ideal) v13 v19 v25 (ix2 m n) := by
  unfold k0_pay23
  exact channel_apply _ _ T m

/-- The stored block at (0, c, h, w): channel 0 is the row value handed in, channels 1 and 2 are computed from the
    same two indicators against their own slabs. -/
theorem pay1_apply (A : FVec Ideal S1024x1152 .bf16) (B : FVec Ideal S1024x128 .f32) (s0 : FVec Ideal S1024 .f32)
    (T1 T2 : Vec Ideal S1x1152x128 .f32) (c : Fin 3) (h : Fin 8) (w : Fin 128) :
    k0_pay1 (F := Ideal) A B s0 T1 T2 (ix4 0 c h w)
      = (![s0 (ix1 (rowIx h w)),
           ∑ n : Fin 128, (∑ k : Fin 1152, A (ix2 (rowIx h w) k) * T1 (ix3 (0 : Fin 1) k n)) * B (ix2 (rowIx h w) n),
           ∑ n : Fin 128, (∑ k : Fin 1152, A (ix2 (rowIx h w) k) * T2 (ix3 (0 : Fin 1) k n)) * B (ix2 (rowIx h w) n)] : Fin 3 → EReal) c := by
  unfold k0_pay1
  refine (shapeCast_abc_1abc_apply _ _ 0 c h w).trans ?_
  refine (stack3_apply _ _ _ _ c h w).trans ?_
  match c with
  | ⟨0, _⟩ => exact rows_tile_apply _ _ _ _ 0 h w
  | ⟨1, _⟩ => exact (rows_tile_apply _ _ _ _ 0 h w).trans (channel_apply A B T1 (rowIx h w))
  | ⟨2, _⟩ => exact (rows_tile_apply _ _ _ _ 0 h w).trans (channel_apply A B T2 (rowIx h w))

end Block

/-- Element (0, c, h, w) of what the body leaves in the output block, from the staged table `x0` and image tile `x1`. -/
theorem out_apply (x0 : Vec Ideal S3x1152x128 .f32) (x1 : Vec Ideal S1x3x8x128 .f32) (c : Fin 3) (h : Fin 8) (w : Fin 128) :
    out0_2 (F := Ideal) x0 x1 (ix4 0 c h w)
      = oneHotCell (fun k n => x0 (ix3 c k n)) (x1 (ix4 0 0 h w)) (x1 (ix4 0 1 h w)) (x1 (ix4 0 2 h w)) := by
  have hz : (![0, 0, 0, 0] : Fin 4 → Nat) = fun _ => 0 := funext fun a => by fin_cases a <;> rfl
  -- every channel's value is the same double sum over its own slab of the table
  have key : ∀ (T : Vec Ideal S1x1152x128 .f32) (a : Fin 3), (∀ k n, T (ix3 (0 : Fin 1) k n) = x0 (ix3 a k n)) →
      (∑ n : Fin 128, (∑ k : Fin 1152, rowsOf x1 (ix2 (rowIx h w) k) * T (ix3 (0 : Fin 1) k n)) * colsOf x1 (ix2 (rowIx h w) n))
        = oneHotCell (fun k n => x0 (ix3 a k n)) (x1 (ix4 0 0 h w)) (x1 (ix4 0 1 h w)) (x1 (ix4 0 2 h w)) := by
    intro T a hT
    unfold oneHotCell
    refine Finset.sum_congr rfl fun n _ => ?_
    rw [colsOf_apply]
    refine congrArg (· * colWeight (x1 (ix4 0 0 h w)) n) (Finset.sum_congr rfl fun k _ => ?_)
    rw [rowsOf_apply, hT]
  unfold out0_2
  rw [View.canon_unit_zero hz]
  simp only [View.ld_unit_zero (S := S1x3x8x128) hz]
  refine (pay1_apply _ _ _ _ _ c h w).trans ?_
  match c with
  | ⟨0, _⟩ =>
    refine (pay23_apply _ _ _ _ _ _ _ _ _ _ (rowIx h w)).trans ?_
    exact key _ 0 fun k n => slab_apply x0 0 _ 0 rfl 0 k n
  | ⟨1, _⟩ => exact key _ 1 fun k n => slab_apply x0 1 _ 1 rfl 0 k n
  | ⟨2, _⟩ => exact key _ 2 fun k n => slab_apply x0 2 _ 2 rfl 0 k n

end Cert.Lut3D

end
-- ==== Proof.KernelArray.lean ====
/-
  From blocks to the whole array.  Grid point (b, hi, wi) stages the image tile x[b, :, 8·hi … 8·hi+7, 128·wi … 128·wi+127]
  and the whole padded table, and writes back the tile of the same position of the output; the tiles cover the output,
  so after the run the output array is `tableImage` of the padded table and the image, element by element.
-/
import proofs.«408813_j21191368639341_4_alg».proof.Proof.Gen.KernelIdeal.Value
import proofs.«408813_j21191368639341_4_alg».proof.Proof.KernelCell
import Idealize.ShloMosaic.Lib.ValueIdx
import Idealize.ShloMosaic.Lib.Pipeline.Value

noncomputable section

namespace Cert.Lut3D

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

namespace Tiling

/-! ## The grid: point number t is (b, hi, wi) = (t / 1024, t / 8 mod 128, t mod 8) -/

/-- The three coordinates of a grid point as quotients and remainders of its number. -/
theorem coords_val (t : Fin cfg0.N) :
    (grid0.coords t 0).val = t.val / 1024 % 8 ∧ (grid0.coords t 1).val = t.val / 8 % 128
      ∧ (grid0.coords t 2).val = t.val / 1 % 8 := by
  refine ⟨?_, ?_, ?_⟩
  · show t.val / grid0.stride 0 % grid0.bound 0 = _
    rw [show grid0.stride 0 = 1024 from by decide]; rfl
  · show t.val / grid0.stride 1 % grid0.bound 1 = _
    rw [show grid0.stride 1 = 8 from by decide]; rfl
  · show t.val / grid0.stride 2 % grid0.bound 2 = _
    rw [show grid0.stride 2 = 1 from by decide]; rfl

/-! ## The index maps: the table's one block; the image's and the output's tile (b, 0, hi, wi) -/

/-- The table window's block index is zero on every axis. -/
theorem table_index (t : Fin cfg0.N) (a : Fin 3) : win0_0.index t a = 0 := by
  match a with
  | ⟨0, _⟩ => rfl
  | ⟨1, _⟩ => rfl
  | ⟨2, _⟩ => rfl

/-- A grid coordinate written as a 32-bit word and read back is itself. -/
theorem word_val (n : Nat) (h : n < 128 + 1) : (BitVec.ofNat 32 n).toNat = n := by
  rw [BitVec.toNat_ofNat]; omega

/-- The image window's block index at a point is (b, 0, hi, wi). -/
theorem image_index (t : Fin cfg0.N) :
    win0_1.index t (0 : Fin 4) = (grid0.coords t 0).val ∧ win0_1.index t (1 : Fin 4) = 0
      ∧ win0_1.index t (2 : Fin 4) = (grid0.coords t 1).val ∧ win0_1.index t (3 : Fin 4) = (grid0.coords t 2).val := by
  have h0 : (grid0.coords t 0).val < 8 := (grid0.coords t 0).isLt
  have h1 : (grid0.coords t 1).val < 128 := (grid0.coords t 1).isLt
  have h2 : (grid0.coords t 2).val < 8 := (grid0.coords t 2).isLt
  refine ⟨?_, rfl, ?_, ?_⟩
  · exact word_val _ (by omega)
  · exact word_val _ (by omega)
  · exact word_val _ (by omega)

/-- The output window's block index at a point is (b, 0, hi, wi). -/
theorem output_index (t : Fin cfg0.N) :
    win0_2.index t (0 : Fin 4) = (grid0.coords t 0).val ∧ win0_2.index t (1 : Fin 4) = 0
      ∧ win0_2.index t (2 : Fin 4) = (grid0.coords t 1).val ∧ win0_2.index t (3 : Fin 4) = (grid0.coords t 2).val := by
  have h0 : (grid0.coords t 0).val < 8 := (grid0.coords t 0).isLt
  have h1 : (grid0.coords t 1).val < 128 := (grid0.coords t 1).isLt
  have h2 : (grid0.coords t 2).val < 8 := (grid0.coords t 2).isLt
  refine ⟨?_, rfl, ?_, ?_⟩
  · exact word_val _ (by omega)
  · exact word_val _ (by omega)
  · exact word_val _ (by omega)

/-! ## The staged blocks as parts of the arrays -/

/-- The table window's one block is the whole padded table. -/
theorem table_block (c : Dev nD) (t : Fin cfg0.N) (x : S3x1152x128.Idx) :
    (iblk (F := Ideal) m c 0 t : Vec Ideal S3x1152x128 .f32) x = (V (F := Ideal) m c main_v1 : S3x1152x128.Idx → EReal) x := by
  unfold iblk
  rw [View.read_apply]
  show V (F := Ideal) m c main_v1 _ = V (F := Ideal) m c main_v1 _
  congr 1
  funext a
  apply Fin.ext
  match a with
  | ⟨0, _⟩ => show win0_0.index t 0 * 3 + 1 * (x 0).val = (x 0).val; rw [table_index t 0]; omega
  | ⟨1, _⟩ => show win0_0.index t 1 * 1152 + 1 * (x 1).val = (x 1).val; rw [table_index t 1]; omega
  | ⟨2, _⟩ => show win0_0.index t 2 * 128 + 1 * (x 2).val = (x 2).val; rw [table_index t 2]; omega

/-- Element (0, a, h, w) of the image tile at point (b, hi, wi) is the image at (b, a, 8·hi + h, 128·wi + w). -/
theorem image_block (c : Dev nD) (t : Fin cfg0.N) (a : Fin 3) (h : Fin 8) (w : Fin 128) (k : S8x3x1024x1024.Idx)
    (hk0 : (k 0).val = (grid0.coords t 0).val) (hk1 : (k 1).val = a.val)
    (hk2 : (k 2).val = 8 * (grid0.coords t 1).val + h.val) (hk3 : (k 3).val = 128 * (grid0.coords t 2).val + w.val) :
    (iblk (F := Ideal) m c 1 t : Vec Ideal S1x3x8x128 .f32) (ix4 0 a h w)
      = (m ((c.tc : Thread nD τ).loc main_arg1) : S8x3x1024x1024.Idx → EReal) k := by
  obtain ⟨e0, e1, e2, e3⟩ := image_index t
  unfold iblk
  rw [View.read_apply]
  show V (F := Ideal) m c main_arg1 _ = m ((c.tc : Thread nD τ).loc main_arg1) _
  rw [V_main_arg1]
  congr 1
  funext d
  apply Fin.ext
  match d with
  | ⟨0, _⟩ => show win0_1.index t 0 * 1 + 1 * (0 : Fin 1).val = (k 0).val; rw [e0, hk0]; simp
  | ⟨1, _⟩ => show win0_1.index t 1 * 3 + 1 * a.val = (k 1).val; rw [e1, hk1]; omega
  | ⟨2, _⟩ => show win0_1.index t 2 * 8 + 1 * h.val = (k 2).val; rw [e2, hk2]; omega
  | ⟨3, _⟩ => show win0_1.index t 3 * 128 + 1 * w.val = (k 3).val; rw [e3, hk3]; omega

/-- Element (0, ch, h, w) of the output tile at point (b, hi, wi) sits at (b, ch, 8·hi + h, 128·wi + w) of the output. -/
theorem tile_place (t : Fin cfg0.N) (ch : Fin 3) (h : Fin 8) (w : Fin 128) :
    ((((cfg0.win 2).blk t).view.emb (ix4 0 ch h w)) 0).val = (grid0.coords t 0).val
      ∧ ((((cfg0.win 2).blk t).view.emb (ix4 0 ch h w)) 1).val = ch.val
      ∧ ((((cfg0.win 2).blk t).view.emb (ix4 0 ch h w)) 2).val = 8 * (grid0.coords t 1).val + h.val
      ∧ ((((cfg0.win 2).blk t).view.emb (ix4 0 ch h w)) 3).val = 128 * (grid0.coords t 2).val + w.val := by
  obtain ⟨e0, e1, e2, e3⟩ := output_index t
  refine ⟨?_, ?_, ?_, ?_⟩
  · show win0_2.index t 0 * 1 + 1 * (0 : Fin 1).val = _; rw [e0]; simp
  · show win0_2.index t 1 * 3 + 1 * ch.val = _; rw [e1]; omega
  · show win0_2.index t 2 * 8 + 1 * h.val = _; rw [e2]; omega
  · show win0_2.index t 3 * 128 + 1 * w.val = _; rw [e3]; omega

/-! ## What a point writes back is its tile of the table arrangement -/

/-- One element of the body's result over the staged blocks at a point is the table arrangement at the element's
    place in the whole output: channel ch of the padded table against the image's pixel there. -/
theorem tile_elt (c : Dev nD) (t : Fin cfg0.N) (y : S1x3x8x128.Idx) :
    out0_2 (F := Ideal) (iblk m c 0 t) (iblk m c 1 t) y
      = tableImage (V (F := Ideal) m c main_v1 : S3x1152x128.Idx → EReal) (m ((c.tc : Thread nD τ).loc main_arg1))
          (((cfg0.win 2).blk t).view.emb y) := by
  obtain ⟨a, ch, h, w, rfl⟩ : ∃ (a : Fin 1) (ch : Fin 3) (h : Fin 8) (w : Fin 128), y = ix4 a ch h w :=
    ⟨y 0, y 1, y 2, y 3, eq_ix4 y⟩
  obtain rfl : a = 0 := Subsingleton.elim _ _
  obtain ⟨p0, p1, p2, p3⟩ := tile_place t ch h w
  rw [out_apply]
  unfold tableImage
  dsimp only
  rw [show (((cfg0.win 2).blk t).view.emb (ix4 0 ch h w)) 1 = ch from Fin.ext p1,
    image_block m c t 0 h w (ix4 _ 0 _ _) p0 rfl p2 p3, image_block m c t 1 h w (ix4 _ 1 _ _) p0 rfl p2 p3,
    image_block m c t 2 h w (ix4 _ 2 _ _) p0 rfl p2 p3]
  simp only [table_block]

/-- What point t writes back is block t of the table arrangement of the padded table and the image. -/
theorem flushed_eq (c : Dev nD) (t : Fin cfg0.N) :
    (dats (F := Ideal) m 0 c).flushed 2 t
      = ((cfg0.win 2).blk t).view.read (Elt Ideal)
          (tableImage (V (F := Ideal) m c main_v1 : S3x1152x128.Idx → EReal) (m ((c.tc : Thread nD τ).loc main_arg1))) := by
  rw [Cert.KernelIdeal.Value.flushed2]
  funext y
  exact tile_elt m c t y

/-! ## The tiles cover the output -/

/-- An index of the output is in point t's tile iff each coordinate is in the tile's range on its axis. -/
theorem mem_tile (t : Fin cfg0.N) (i : S8x3x1024x1024.Idx) :
    i ∈ ((cfg0.win 2).blk t).view.set ↔ ∀ a : Fin 4, win0_2.index t a * S1x3x8x128.size a ≤ (i a).val
      ∧ (i a).val < win0_2.index t a * S1x3x8x128.size a + S1x3x8x128.size a := by
  show i ∈ ((View.whole main_v2).slice (win0_2.rect t)).set ↔ _
  rw [View.set_slice_whole, Rect.mem_set_unit]
  exact Iff.rfl

/-- Every index (b, c, H, W) of the output is in the tile of the point (b, H / 8, W / 128), number 1024·b + 8·(H / 8) + W / 128. -/
theorem tiles_cover (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  have hN : cfg0.N = 8192 := N_0
  obtain ⟨t, ht⟩ : ∃ t : Fin cfg0.N, t.val = (i 0).val * 1024 + (i 2).val / 8 * 8 + (i 3).val / 128 :=
    ⟨⟨(i 0).val * 1024 + (i 2).val / 8 * 8 + (i 3).val / 128, by rw [hN]; omega⟩, rfl⟩
  obtain ⟨c0, c1, c2⟩ := coords_val t
  obtain ⟨e0, e1, e2, e3⟩ := output_index t
  refine ⟨t, flush0_2 t, ?_⟩
  rw [mem_tile]
  intro a
  match a with
  | ⟨0, _⟩ =>
    show win0_2.index t 0 * 1 ≤ (i 0).val ∧ (i 0).val < win0_2.index t 0 * 1 + 1
    rw [e0, c0, ht]; omega
  | ⟨1, _⟩ =>
    show win0_2.index t 1 * 3 ≤ (i 1).val ∧ (i 1).val < win0_2.index t 1 * 3 + 3
    rw [e1]; omega
  | ⟨2, _⟩ =>
    show win0_2.index t 2 * 8 ≤ (i 2).val ∧ (i 2).val < win0_2.index t 2 * 8 + 8
    rw [e2, c1, ht]; omega
  | ⟨3, _⟩ =>
    show win0_2.index t 3 * 128 ≤ (i 3).val ∧ (i 3).val < win0_2.index t 3 * 128 + 128
    rw [e3, c2, ht]; omega

end Tiling

/-! ## The output array after the run -/

/-- The output array after the run, as one function of the padded table (as the region finds it) and the image. -/
theorem kernel_final (c : Dev nD) :
    (dats (F := Ideal) m 0 c).arrAt 2 cfg0.N
      = tableImage (V (F := Ideal) m c main_v1 : S3x1152x128.Idx → EReal) (m ((c.tc : Thread nD τ).loc main_arg1)) := by
  exact (dats (F := Ideal) m 0 c).arrAt_eq_of_cover 2 _ (fun t _ => Tiling.flushed_eq m c t) Tiling.tiles_cover

/-- The kernel's run with its result named. -/
theorem kernel_run : θ_run defs (onTc (τ := τ) (main (F := Ideal))) ⟨m, fun _ => 0, ρ⟩ fun r => ∀ c : Dev nD,
      r.2.mem ((c.tc : Thread nD τ).loc main_v2)
        = tableImage (V (F := Ideal) m c main_v1 : S3x1152x128.Idx → EReal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (kernel_final m c), (h c).2⟩)
    (Cert.KernelIdeal.Value.run_blocks m ρ)

end Cert.Lut3D

end
-- ==== Proof.Image.lean ====
/-
  The two whole images are equal.  Under the precondition every entry of the cube and of the image is real, so at each
  element (b, c, h, w) the reference's corner sum over the flattened cube equals the kernel's table contraction over
  the padded table: row k < 1089, column n < 33 of the padded table and position 33·k + n of the flattened cube are the
  same entry (c, k / 33, k mod 33, n) of the cube, and the rest of the padded table is zero.
-/
import proofs.«408813_j21191368639341_4_alg».proof.Proof.Algebra
import proofs.«408813_j21191368639341_4_alg».proof.Proof.RefCell
import proofs.«408813_j21191368639341_4_alg».proof.Proof.Entry
import proofs.«408813_j21191368639341_4_alg».proof.Proof.KernelArray

noncomputable section

namespace Cert.Lut3D

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The reference's result on the kernel's arguments is the kernel's image. -/
theorem image_eq (hpre : Cert.Pre_KernelIdeal m) (c : Dev nD) :
    Cert.ReferenceIdeal.Read.val_main_v200 (F := Ideal)
        (m ((c.tc : Thread nD τ).loc main_arg0)) (m ((c.tc : Thread nD τ).loc main_arg1))
      = tableImage (V (F := Ideal) m c main_v1 : S3x1152x128.Idx → EReal) (m ((c.tc : Thread nD τ).loc main_arg1)) := by
  obtain ⟨hlut, hx⟩ := finite_of_pre m hpre c
  funext i
  obtain ⟨b, ch, h, w, rfl⟩ : ∃ (b : Fin 8) (ch : Fin 3) (h w : Fin 1024), i = ix4 b ch h w :=
    ⟨i 0, i 1, i 2, i 3, eq_ix4 i⟩
  refine (ref_apply _ _ b ch h w).trans ?_
  show _ = oneHotCell (fun k n => (V (F := Ideal) m c main_v1 : S3x1152x128.Idx → EReal) (ix3 ch k n))
    ((m ((c.tc : Thread nD τ).loc main_arg1) : S8x3x1024x1024.Idx → EReal) (ix4 b 0 h w))
    ((m ((c.tc : Thread nD τ).loc main_arg1) : S8x3x1024x1024.Idx → EReal) (ix4 b 1 h w))
    ((m ((c.tc : Thread nD τ).loc main_arg1) : S8x3x1024x1024.Idx → EReal) (ix4 b 2 h w))
  refine (oneHot_eq_corner _ _ ?_ ?_ ?_ _ _ _ (hx _) (hx _) (hx _)).symm
  · intro k n hk hn
    rw [table_inside m c ch k n hk hn]
    refine Eq.trans ?_ (flat_apply _ ch ⟨k.val * 33 + n.val, by omega⟩).symm
    refine congrArg (m ((c.tc : Thread nD τ).loc main_arg0) : S3x33x33x33.Idx → EReal) ?_
    funext a
    apply Fin.ext
    match a with
    | ⟨0, _⟩ => rfl
    | ⟨1, _⟩ => show k.val / 33 = (k.val * 33 + n.val) / 1089; omega
    | ⟨2, _⟩ => show k.val % 33 = (k.val * 33 + n.val) / 33 % 33; omega
    | ⟨3, _⟩ => show n.val = (k.val * 33 + n.val) % 33; omega
  · intro k n
    by_cases hkn : k.val < 1089 ∧ n.val < 33
    · rw [table_inside m c ch k n hkn.1 hkn.2]; exact hlut _
    · rw [table_outside m c ch k n hkn]; exact ⟨0, rfl⟩
  · intro j
    rw [flat_apply]; exact hlut _

end Cert.Lut3D

end
-- ==== Proof.lean ====
/-
  Trilinear interpolation of an image [8, 3, 1024, 1024] in a colour cube [3, 33, 33, 33]: the kernel against its
  reference, over the extended reals.

  Both programs divide each pixel component by the same bin width, floor it and clamp it to 0 … 31 (the cell), and
  keep the difference (the position inside the cell).  The reference flattens the cube to 35937 entries per channel,
  looks up the cell's eight corners at positions 1089·b + 33·g + r + {0, 1089} + {0, 33} + {0, 1} and adds them with
  their trilinear weights.  The kernel lays the cube out as a table of 1152 rows (33·b + g, zero-padded from 1089) by
  128 columns (r, zero-padded from 33); per tile of 8 × 128 pixels it builds a weighted indicator of the four (b, g)
  corner rows, contracts it with the table on the matrix unit, multiplies the 128 results by a weighted indicator of
  columns r and r + 1 and sums them.  With every input real (the precondition) the two are equal by distributivity.

  The frames of the two kernel programs are the generated ones; the reference's frame is its generated run.  The ideal
  pass rewrote nothing, so there is nothing to preserve.  The value claim: the kernel's output array is the table
  arrangement of the padded table and the image at every element (the body's result at an element, the tiles covering
  the array), the reference's result is the corner arrangement, and the two arrangements agree on real inputs.
-/
import proofs.«408813_j21191368639341_4_alg».proof.Defs
import proofs.«408813_j21191368639341_4_alg».proof.Proof.Gen.Kernel
import proofs.«408813_j21191368639341_4_alg».proof.Proof.Gen.Kernel.Skeleton
import proofs.«408813_j21191368639341_4_alg».proof.Proof.Gen.Kernel.Launch
import proofs.«408813_j21191368639341_4_alg».proof.Proof.Gen.Kernel.Points
import proofs.«408813_j21191368639341_4_alg».proof.Proof.Gen.Kernel.Frame
import proofs.«408813_j21191368639341_4_alg».proof.Proof.Gen.KernelIdeal
import proofs.«408813_j21191368639341_4_alg».proof.Proof.Gen.KernelIdeal.Skeleton
import proofs.«408813_j21191368639341_4_alg».proof.Proof.Gen.KernelIdeal.Launch
import proofs.«408813_j21191368639341_4_alg».proof.Proof.Gen.KernelIdeal.Points
import proofs.«408813_j21191368639341_4_alg».proof.Proof.Gen.KernelIdeal.Frame
import proofs.«408813_j21191368639341_4_alg».proof.Proof.Gen.ReferenceIdeal
import proofs.«408813_j21191368639341_4_alg».proof.Proof.Gen.KernelIdeal.Value
import proofs.«408813_j21191368639341_4_alg».proof.Proof.Gen.ReferenceIdeal.Run
import proofs.«408813_j21191368639341_4_alg».proof.Proof.Gen.ReferenceIdeal.Read
import proofs.«408813_j21191368639341_4_alg».proof.Proof.Gen.Pre_finite_inputs
import proofs.«408813_j21191368639341_4_alg».proof.Proof.Image
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's array after its run is the table arrangement; the reference's is the corner arrangement of the same
    cube and image (the arguments agree); the two are equal on real inputs. -/
theorem algebraic : Cert.algebraic_KernelIdeal_ReferenceIdeal := by
  intro m ρ m' ρ' hpre hagree
  refine ⟨fun c => Cert.Lut3D.tableImage
      (Cert.KernelIdeal.Gen.V (F := Ideal) m c Cert.KernelIdeal.main_v1 : Cert.KernelIdeal.S3x1152x128.Idx → EReal)
      (m ((c.tc : Thread Cert.KernelIdeal.nD Cert.KernelIdeal.τ).loc Cert.KernelIdeal.main_arg1)),
    Cert.Lut3D.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v200_eq, (hagree c).1, (hagree c).2]
  exact Cert.Lut3D.image_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
